-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel

variable [Facts]

def fn {F : FTy → Type} [FloatOps F] (main_arg0 : FVec F S262144x256 .f32) (main_arg1 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  main_v3
-- ==== Kernel.lean ====
abbrev S262144x256 : Shape := ⟨2, ![262144, 256]⟩
abbrev S262144 : Shape := ⟨1, ![262144]⟩
abbrev S64x1x4096 : Shape := ⟨3, ![64, 1, 4096]⟩
abbrev S2x128x256 : Shape := ⟨3, ![2, 128, 256]⟩
abbrev S2x128x1 : Shape := ⟨3, ![2, 128, 1]⟩
abbrev S4096x256 : Shape := ⟨2, ![4096, 256]⟩
abbrev S1x1x4096 : Shape := ⟨3, ![1, 1, 4096]⟩
abbrev S1x128x256 : Shape := ⟨3, ![1, 128, 256]⟩
abbrev S1x128x1 : Shape := ⟨3, ![1, 128, 1]⟩
abbrev S128x256 : Shape := ⟨2, ![128, 256]⟩
abbrev S128x1 : Shape := ⟨2, ![128, 1]⟩
abbrev S1x4096 : Shape := ⟨2, ![1, 4096]⟩
abbrev S128x4096 : Shape := ⟨2, ![128, 4096]⟩
abbrev S128 : Shape := ⟨1, ![128]⟩
abbrev S4096 : Shape := ⟨1, ![4096]⟩
abbrev S4096x1 : Shape := ⟨2, ![4096, 1]⟩
abbrev S_ : Shape := ⟨0, ![]⟩
abbrev S100 : Shape := ⟨1, ![100]⟩

abbrev nBuf : Space → Nat
  | .hbm => 51
  | .vmem => 10
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S64x1x4096, .i32⟩
  | .hbm, ⟨3, _⟩ => ⟨S2x128x256, .f32⟩
  | .hbm, ⟨4, _⟩ => ⟨S2x128x1, .f32⟩
  | .hbm, ⟨5, _⟩ => ⟨S2x128x1, .f32⟩
  | .hbm, ⟨6, _⟩ => ⟨S_, .f32⟩
  | .hbm, ⟨7, _⟩ => ⟨S128x256, .f32⟩
  | .hbm, ⟨8, _⟩ => ⟨S_, .f32⟩
  | .hbm, ⟨9, _⟩ => ⟨S128x1, .f32⟩
  | .hbm, ⟨10, _⟩ => ⟨S128, .f32⟩
  | .hbm, ⟨11, _⟩ => ⟨S_, .f32⟩
  | .hbm, ⟨12, _⟩ => ⟨S128x1, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128x1, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S100, .f32⟩
  | .hbm, ⟨29, _⟩ => ⟨S100, .f32⟩
  | .hbm, ⟨30, _⟩ => ⟨S_, .f32⟩
  | .hbm, ⟨31, _⟩ => ⟨S100, .f32⟩
  | .hbm, ⟨32, _⟩ => ⟨S100, .f32⟩
  | .hbm, ⟨33, _⟩ => ⟨S_, .f32⟩
  | .hbm, ⟨34, _⟩ => ⟨S100, .f32⟩
  | .hbm, ⟨35, _⟩ => ⟨S100, .i1⟩
  | .hbm, ⟨36, _⟩ => ⟨S100, .f32⟩
  | .hbm, ⟨37, _⟩ => ⟨S_, .f32⟩
  | .hbm, ⟨38, _⟩ => ⟨S_, .f32⟩
  | .hbm, ⟨39, _⟩ => ⟨S100, .f32⟩
  | .hbm, ⟨40, _⟩ => ⟨S100, .f32⟩
  | .hbm, ⟨41, _⟩ => ⟨S_, .f32⟩
  | .hbm, ⟨42, _⟩ => ⟨S100, .f32⟩
  | .hbm, ⟨43, _⟩ => ⟨S100, .i1⟩
  | .hbm, ⟨44, _⟩ => ⟨S100, .i32⟩
  | .hbm, ⟨45, _⟩ => ⟨S_, .i32⟩
  | .hbm, ⟨46, _⟩ => ⟨S_, .i32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S4096x256, .f32⟩
  | .local _ .vmem, ⟨1, _⟩ => ⟨S4096x256, .f32⟩
  | .local _ .vmem, ⟨2, _⟩ => ⟨S1x1x4096, .i32⟩
  | .local _ .vmem, ⟨3, _⟩ => ⟨S1x1x4096, .i32⟩
  | .local _ .vmem, ⟨4, _⟩ => ⟨S1x128x256, .f32⟩
  | .local _ .vmem, ⟨5, _⟩ => ⟨S1x128x256, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_call0_v0 : Ref sig .tc := ⟨.hbm, 38, rfl⟩
abbrev main_call0_v1 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S262144_S64x1x4096 : S262144.ShapeCasts S64x1x4096
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  iota_S128x4096_d0_w32 : S128x4096.Iotas .tc 32 [0]
  broadcasts_S1x4096_S128x4096 : S1x4096.Broadcasts S128x4096
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  natLt_1_32 : 1 < 32
  reduces_S128x4096_S128 : S128x4096.Reduces [1] S128
  shapeCasts_S128_S128x1 : S128.ShapeCasts S128x1
  reduces_S4096x256_S4096 : S4096x256.Reduces [1] S4096
  shapeCasts_S4096_S4096x1 : S4096.ShapeCasts S4096x1
  transposes_S4096x1_p1_0_S1x4096 : S4096x1.Transposes [1, 0] S1x4096
  reducesTo_S2x128x256_S128x256_d0 : S2x128x256.ReducesTo [0] S128x256
  h_S_ : 0 < S_.numel
  reducesTo_S2x128x1_S128x1_d0 : S2x128x1.ReducesTo [0] S128x1
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  reducesTo_S128x256_S128_d1 : S128x256.ReducesTo [1] S128
  slices_S128_S100_0 : S128.Slices ![0] S100
  bcast_S_S100 : S_.BroadcastsInDim S100 (![] : Fin 0 → Fin S100.rank)
  reducesTo_S100_S_d0 : S100.ReducesTo [0] S_
  dot_S128x4096_S4096x256_S128x256_1_0_0_1_n_n_wf : DotDims.WF S128x4096 S4096x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S262144x256.size a
  hwx0_0 : ∀ i : grid0.Coords, EltTy.bits .f32 = 32 ∨ (Rect.block (s := S262144x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S64x1x4096.size a
  hwx0_1 : ∀ i : grid0.Coords, EltTy.bits .i32 = 32 ∨ (Rect.block (s := S64x1x4096) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x256.size a ≤ S2x128x256.size a
  hwx0_2 : ∀ i : grid0.Coords, EltTy.bits .f32 = 32 ∨ (Rect.block (s := S2x128x256) S1x128x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S2x128x1.size a
  hwx0_3 : ∀ i : grid0.Coords, EltTy.bits .f32 = 32 ∨ (Rect.block (s := S2x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S2x128x1.size a
  hwx0_4 : ∀ i : grid0.Coords, EltTy.bits .f32 = 32 ∨ (Rect.block (s := S2x128x1) S1x128x1.size (cc0_transform_4 i) (hinb0_4 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x128x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x128x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S262144 : Shape := ⟨1, ![262144]⟩
abbrev S_ : Shape := ⟨0, ![]⟩
abbrev S100 : Shape := ⟨1, ![100]⟩
abbrev S262144x1 : Shape := ⟨2, ![262144, 1]⟩
abbrev S100x256 : Shape := ⟨2, ![100, 256]⟩
abbrev S100x1 : Shape := ⟨2, ![100, 1]⟩

abbrev nBuf : Space → Nat
  | .hbm => 53
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S262144, .i32⟩
  | .hbm, ⟨2, _⟩ => ⟨S_, .f32⟩
  | .hbm, ⟨3, _⟩ => ⟨S262144, .f32⟩
  | .hbm, ⟨4, _⟩ => ⟨S_, .f32⟩
  | .hbm, ⟨5, _⟩ => ⟨S100, .f32⟩
  | .hbm, ⟨6, _⟩ => ⟨S262144x1, .i32⟩
  | .hbm, ⟨7, _⟩ => ⟨S100, .f32⟩
  | .hbm, ⟨8, _⟩ => ⟨S_, .f32⟩
  | .hbm, ⟨9, _⟩ => ⟨S100x256, .f32⟩
  | .hbm, ⟨10, _⟩ => ⟨S262144x1, .i32⟩
  | .hbm, ⟨11, _⟩ => ⟨S100x256, .f32⟩
  | .hbm, ⟨12, _⟩ => ⟨S_, .f32⟩
  | .hbm, ⟨13, _⟩ => ⟨S100, .f32⟩
  | .hbm, ⟨14, _⟩ => ⟨S100, .f32⟩
  | .hbm, ⟨15, _⟩ => ⟨S100x1, .f32⟩
  | .hbm, ⟨16, _⟩ => ⟨S100x256, .f32⟩
  | .hbm, ⟨17, _⟩ => ⟨S100x256, .f32⟩
  | .hbm, ⟨18, _⟩ => ⟨S_, .i32⟩
  | .hbm, ⟨19, _⟩ => ⟨S262144, .i32⟩
  | .hbm, ⟨20, _⟩ => ⟨S262144, .i1⟩
  | .hbm, ⟨21, _⟩ => ⟨S_, .i32⟩
  | .hbm, ⟨22, _⟩ => ⟨S262144, .i32⟩
  | .hbm, ⟨23, _⟩ => ⟨S262144, .i32⟩
  | .hbm, ⟨24, _⟩ => ⟨S262144, .i32⟩
  | .hbm, ⟨25, _⟩ => ⟨S262144x1, .i32⟩
  | .hbm, ⟨26, _⟩ => ⟨S262144x256, .f32⟩
  | .hbm, ⟨27, _⟩ => ⟨S262144x256, .f32⟩
  | .hbm, ⟨28, _⟩ => ⟨S262144x256, .f32⟩
  | .hbm, ⟨29, _⟩ => ⟨S_, .f32⟩
  | .hbm, ⟨30, _⟩ => ⟨S262144, .f32⟩
  | .hbm, ⟨31, _⟩ => ⟨S_, .f32⟩
  | .hbm, ⟨32, _⟩ => ⟨S100, .f32⟩
  | .hbm, ⟨33, _⟩ => ⟨S262144x1, .i32⟩
  | .hbm, ⟨34, _⟩ => ⟨S100, .f32⟩
  | .hbm, ⟨35, _⟩ => ⟨S_, .f32⟩
  | .hbm, ⟨36, _⟩ => ⟨S100, .f32⟩
  | .hbm, ⟨37, _⟩ => ⟨S100, .i1⟩
  | .hbm, ⟨38, _⟩ => ⟨S100, .f32⟩
  | .hbm, ⟨39, _⟩ => ⟨S_, .f32⟩
  | .hbm, ⟨40, _⟩ => ⟨S_, .f32⟩
  | .hbm, ⟨41, _⟩ => ⟨S100, .f32⟩
  | .hbm, ⟨42, _⟩ => ⟨S100, .f32⟩
  | .hbm, ⟨43, _⟩ => ⟨S_, .f32⟩
  | .hbm, ⟨44, _⟩ => ⟨S100, .f32⟩
  | .hbm, ⟨45, _⟩ => ⟨S100, .i1⟩
  | .hbm, ⟨46, _⟩ => ⟨S100, .i32⟩
  | .hbm, ⟨47, _⟩ => ⟨S_, .i32⟩
  | .hbm, ⟨48, _⟩ => ⟨S_, .i32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_7 : Ref sig .tc := ⟨.hbm, 39, rfl⟩
abbrev main_call0_v0 : Ref sig .tc := ⟨.hbm, 40, rfl⟩
abbrev main_call0_v1 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_9 : Ref sig .tc := ⟨.hbm, 47, rfl⟩
abbrev main_v32 : Ref sig .tc := ⟨.hbm, 48, rfl⟩
abbrev main_v33 : Ref sig .tc := ⟨.hbm, 49, rfl⟩
abbrev main_cst_10 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S_S100 : S_.BroadcastsInDim S100 (![] : Fin 0 → Fin S100.rank)
  bcast_S262144_S262144x1_0 : S262144.BroadcastsInDim S262144x1 (![0] : Fin 1 → Fin S262144x1.rank)
  bcast_S_S100x256 : S_.BroadcastsInDim S100x256 (![] : Fin 0 → Fin S100x256.rank)
  bcast_S100_S100x1_0 : S100.BroadcastsInDim S100x1 (![0] : Fin 1 → Fin S100x1.rank)
  bcast_S100x1_S100x256_0_1 : S100x1.BroadcastsInDim S100x256 (![0, 1] : Fin 2 → Fin S100x256.rank)
  reducesTo_S262144x256_S262144_d1 : S262144x256.ReducesTo [1] S262144
  h_S_ : 0 < S_.numel
  natLt_1_32 : 1 < 32
  reducesTo_S100_S_d0 : S100.ReducesTo [0] S_
  scatter_S100_S262144x1_S262144_n_0_0_1_wf : ScatterDims.WF S100 S262144x1 S262144 [] [0] [0] 1
  scatter_S100x256_S262144x1_S262144x256_1_0_0_1_wf : ScatterDims.WF S100x256 S262144x1 S262144x256 [1] [0] [0] 1
  gather_S100x256_S262144x1_S262144x256_1_0_n_n_0_1_1256_wf : GatherDims.WF S100x256 S262144x1 S262144x256 [1] [0] [] [0] [] 1 ![1, 256]

variable [Facts₀]

def scatter_S100_S262144x1_S262144_n_0_0_1 : ScatterDims S100 S262144x1 S262144 where
  updateWindowDims := []
  insertedWindowDims := [0]
  scatterDimsToOperandDims := [0]
  indexVectorDim := 1
  wf := scatter_S100_S262144x1_S262144_n_0_0_1_wf
def scatter_S100x256_S262144x1_S262144x256_1_0_0_1 : ScatterDims S100x256 S262144x1 S262144x256 where
  updateWindowDims := [1]
  insertedWindowDims := [0]
  scatterDimsToOperandDims := [0]
  indexVectorDim := 1
  wf := scatter_S100x256_S262144x1_S262144x256_1_0_0_1_wf
def gather_S100x256_S262144x1_S262144x256_1_0_n_n_0_1_1256 : GatherDims S100x256 S262144x1 S262144x256 where
  offsetDims := [1]
  collapsedSliceDims := [0]
  operandBatchingDims := []
  startIndicesBatchingDims := []
  startIndexMap := [0]
  indexVectorDim := 1
  sliceSizes := ![1, 256]
  wf := gather_S100x256_S262144x1_S262144x256_1_0_n_n_0_1_1256_wf

class Facts : Prop extends Facts₀ where

variable [Facts]
-- ==== Proof.KPieces.lean ====
/-
  What the three output blocks hold after each grid point, as values.

  The grid has 64 points, two groups of 32 (one per core). At the first point of a group the body first stores zero
  into its three output blocks and then adds the point's contribution; at every other point it adds the point's
  contribution to what the block held after the point before. So after point `n` the blocks hold the group's running
  totals: `acc` below, by recursion on the point, every step the same three stored values over the point's label block
  and embedding block. `outs_eq` says the contents the frame run tracks are these running totals.
-/
import proofs.«416044_j549755813958_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

theorem sums_B (c : Dev nD) (i : grid0.Coords) (arg2 : Memref sig .tc .vmem S4096x256 .f32) (harg2 : arg2.IsWhole) (arg3 : Memref sig .tc .vmem S1x1x4096 .i32) (harg3 : arg3.IsWhole) (arg4 : Memref sig .tc .vmem S1x128x256 .f32) (harg4 : arg4.IsWhole) (arg5 : Memref sig .tc .vmem S1x128x1 .f32) (harg5 : arg5.IsWhole) (arg6 : Memref sig .tc .vmem S1x128x1 .f32) (harg6 : arg6.IsWhole) (hc0 : ¬cond0_0 i)
    (x0 : Vec F S4096x256 .f32) (x1 : Vec F S1x1x4096 .i32) (xo2 : Vec F S1x128x256 .f32) (xo3 : Vec F S1x128x1 .f32) (xo4 : Vec F S1x128x1 .f32) :
    out0_B_2 c i arg2 harg2 arg3 harg3 arg4 harg4 arg5 harg5 arg6 harg6 hc0 x0 x1 xo2 xo3 xo4 = k0_pay9 x1 x0 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S4096x256) hz2, View.ld_unit_zero (S := S1x1x4096) hz3, View.ld_unit_zero (S := S1x128x256) hz3, View.ld_unit_zero (S := S1x128x1) hz3]

theorem sums_A (c : Dev nD) (i : grid0.Coords) (arg2 : Memref sig .tc .vmem S4096x256 .f32) (harg2 : arg2.IsWhole) (arg3 : Memref sig .tc .vmem S1x1x4096 .i32) (harg3 : arg3.IsWhole) (arg4 : Memref sig .tc .vmem S1x128x256 .f32) (harg4 : arg4.IsWhole) (arg5 : Memref sig .tc .vmem S1x128x1 .f32) (harg5 : arg5.IsWhole) (arg6 : Memref sig .tc .vmem S1x128x1 .f32) (harg6 : arg6.IsWhole) (hc0 : cond0_0 i)
    (x0 : Vec F S4096x256 .f32) (x1 : Vec F S1x1x4096 .i32) :
    out0_A_2 c i arg2 harg2 arg3 harg3 arg4 harg4 arg5 harg5 arg6 harg6 hc0 x0 x1 = k0_pay9 x1 x0 (k0_pay3 (F := F)) := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  rw [View.canon_cons_unit_zero (S := S1x128x256) hz3, View.readCov_unit_zero (S := S1x128x256) _ hz3]
  simp only [View.readAt_eq_ld, harg2.read_unread, harg3.read_unread, harg4.read_unread, harg5.read_unread, harg6.read_unread, View.ld_unit_zero (S := S4096x256) hz2, View.ld_unit_zero (S := S1x1x4096) hz3, View.ld_unit_zero (S := S1x128x256) hz3, View.ld_unit_zero (S := S1x128x1) hz3]

theorem counts_B (c : Dev nD) (i : grid0.Coords) (arg2 : Memref sig .tc .vmem S4096x256 .f32) (harg2 : arg2.IsWhole) (arg3 : Memref sig .tc .vmem S1x1x4096 .i32) (harg3 : arg3.IsWhole) (arg4 : Memref sig .tc .vmem S1x128x256 .f32) (harg4 : arg4.IsWhole) (arg5 : Memref sig .tc .vmem S1x128x1 .f32) (harg5 : arg5.IsWhole) (arg6 : Memref sig .tc .vmem S1x128x1 .f32) (harg6 : arg6.IsWhole) (hc0 : ¬cond0_0 i)
    (x0 : Vec F S4096x256 .f32) (x1 : Vec F S1x1x4096 .i32) (xo2 : Vec F S1x128x256 .f32) (xo3 : Vec F S1x128x1 .f32) (xo4 : Vec F S1x128x1 .f32) :
    out0_B_3 c i arg2 harg2 arg3 harg3 arg4 harg4 arg5 harg5 arg6 harg6 hc0 x0 x1 xo2 xo3 xo4 = k0_pay1 (k0_pay10 x1 xo3) := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S4096x256) hz2, View.ld_unit_zero (S := S1x1x4096) hz3, View.ld_unit_zero (S := S1x128x256) hz3, View.ld_unit_zero (S := S1x128x1) hz3]

theorem counts_A (c : Dev nD) (i : grid0.Coords) (arg2 : Memref sig .tc .vmem S4096x256 .f32) (harg2 : arg2.IsWhole) (arg3 : Memref sig .tc .vmem S1x1x4096 .i32) (harg3 : arg3.IsWhole) (arg4 : Memref sig .tc .vmem S1x128x256 .f32) (harg4 : arg4.IsWhole) (arg5 : Memref sig .tc .vmem S1x128x1 .f32) (harg5 : arg5.IsWhole) (arg6 : Memref sig .tc .vmem S1x128x1 .f32) (harg6 : arg6.IsWhole) (hc0 : cond0_0 i)
    (x0 : Vec F S4096x256 .f32) (x1 : Vec F S1x1x4096 .i32) :
    out0_A_3 c i arg2 harg2 arg3 harg3 arg4 harg4 arg5 harg5 arg6 harg6 hc0 x0 x1 = k0_pay1 (k0_pay10 x1 (k0_pay4 (F := F))) := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread, View.ld_unit_zero (S := S4096x256) hz2, View.ld_unit_zero (S := S1x1x4096) hz3, View.ld_unit_zero (S := S1x128x256) hz3, View.ld_unit_zero (S := S1x128x1) hz3]

theorem sq_B (c : Dev nD) (i : grid0.Coords) (arg2 : Memref sig .tc .vmem S4096x256 .f32) (harg2 : arg2.IsWhole) (arg3 : Memref sig .tc .vmem S1x1x4096 .i32) (harg3 : arg3.IsWhole) (arg4 : Memref sig .tc .vmem S1x128x256 .f32) (harg4 : arg4.IsWhole) (arg5 : Memref sig .tc .vmem S1x128x1 .f32) (harg5 : arg5.IsWhole) (arg6 : Memref sig .tc .vmem S1x128x1 .f32) (harg6 : arg6.IsWhole) (hc0 : ¬cond0_0 i)
    (x0 : Vec F S4096x256 .f32) (x1 : Vec F S1x1x4096 .i32) (xo2 : Vec F S1x128x256 .f32) (xo3 : Vec F S1x128x1 .f32) (xo4 : Vec F S1x128x1 .f32) :
    out0_B_4 c i arg2 harg2 arg3 harg3 arg4 harg4 arg5 harg5 arg6 harg6 hc0 x0 x1 xo2 xo3 xo4 = k0_pay2 (k0_pay8 x1 x0) xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  rw [View.canon_unit_zero hz3]
  simp only [View.readAt_eq_ld, harg2.read_unread, harg3.read_unread, harg4.read_unread, harg5.read_unread, harg6.read_unread, View.ld_unit_zero (S := S4096x256) hz2, View.ld_unit_zero (S := S1x1x4096) hz3, View.ld_unit_zero (S := S1x128x256) hz3, View.ld_unit_zero (S := S1x128x1) hz3]

theorem sq_A (c : Dev nD) (i : grid0.Coords) (arg2 : Memref sig .tc .vmem S4096x256 .f32) (harg2 : arg2.IsWhole) (arg3 : Memref sig .tc .vmem S1x1x4096 .i32) (harg3 : arg3.IsWhole) (arg4 : Memref sig .tc .vmem S1x128x256 .f32) (harg4 : arg4.IsWhole) (arg5 : Memref sig .tc .vmem S1x128x1 .f32) (harg5 : arg5.IsWhole) (arg6 : Memref sig .tc .vmem S1x128x1 .f32) (harg6 : arg6.IsWhole) (hc0 : cond0_0 i)
    (x0 : Vec F S4096x256 .f32) (x1 : Vec F S1x1x4096 .i32) :
    out0_A_4 c i arg2 harg2 arg3 harg3 arg4 harg4 arg5 harg5 arg6 harg6 hc0 x0 x1 = k0_pay2 (k0_pay8 x1 x0) (k0_pay5 (F := F)) := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  rw [View.canon_cons_unit_zero (S := S1x128x1) hz3, View.readCov_unit_zero (S := S1x128x1) _ hz3]
  simp only [View.readAt_eq_ld, harg2.read_unread, harg3.read_unread, harg4.read_unread, harg5.read_unread, harg6.read_unread, View.ld_unit_zero (S := S4096x256) hz2, View.ld_unit_zero (S := S1x1x4096) hz3, View.ld_unit_zero (S := S1x128x256) hz3, View.ld_unit_zero (S := S1x128x1) hz3]

/-! ## The running totals -/

variable (m : (ℓ : Loc nD τ sig) → Buf (Elt F) ℓ)

/-- The embedding block and the label block of point `t`, at their literal types. -/
abbrev embBlk (c : Dev nD) (t : Fin cfg0.N) : Vec F S4096x256 .f32 := iblk m c 0 t
abbrev labBlk (c : Dev nD) (t : Fin cfg0.N) : Vec F S1x1x4096 .i32 := iblk m c 1 t

/-- The contents of the three output blocks. -/
abbrev Blocks (F : FTy → Type) [FloatOps F] : Type := Vec F S1x128x256 .f32 × Vec F S1x128x1 .f32 × Vec F S1x128x1 .f32

/-- One point's update of the three blocks: the three stores' values over the point's blocks and what the blocks held. -/
def step (lab : Vec F S1x1x4096 .i32) (emb : Vec F S4096x256 .f32) (a : Blocks F) : Blocks F :=
  (k0_pay9 lab emb a.1, k0_pay1 (k0_pay10 lab a.2.1), k0_pay2 (k0_pay8 lab emb) a.2.2)

/-- The three blocks after the reset stores. -/
def zeros : Blocks F := (k0_pay3, k0_pay4, k0_pay5)

/-- The three blocks after point `n`: a group's first point starts from zero, any other from the point before. -/
def acc (c : Dev nD) : (n : ℕ) → n < cfg0.N → Blocks F
  | 0, h => step (labBlk m c ⟨0, h⟩) (embBlk m c ⟨0, h⟩) zeros
  | n + 1, h =>
    if (n + 1) % 32 = 0 then step (labBlk m c ⟨n + 1, h⟩) (embBlk m c ⟨n + 1, h⟩) zeros
    else step (labBlk m c ⟨n + 1, h⟩) (embBlk m c ⟨n + 1, h⟩) (acc c n (Nat.lt_of_succ_lt h))

/-- The contents the frame run tracks are the running totals, by induction on the point. -/
theorem outs_eq (c : Dev nD) : ∀ (n : ℕ) (h : n < cfg0.N), outsAt0 m c n h = acc m c n h
  | 0, h => by
    rw [outsAt0_A m c ⟨0, h⟩ rfl, sums_A, counts_A, sq_A]
    rfl
  | n + 1, h => by
    by_cases h0 : (n + 1) % 32 = 0
    · rw [outsAt0_A m c ⟨n + 1, h⟩ h0, sums_A, counts_A, sq_A]
      simp only [acc, if_pos h0]
      rfl
    · rw [outsAt0_B m c ⟨n + 1, h⟩ h0, sums_B, counts_B, sq_B]
      simp only [acc, if_neg h0]
      have ih := outs_eq c n (Nat.lt_of_succ_lt h)
      show (k0_pay9 _ _ (outsAt0 m c n _).1, k0_pay1 (k0_pay10 _ (outsAt0 m c n _).2.1), k0_pay2 (k0_pay8 _ _) (outsAt0 m c n _).2.2) = _
      rw [ih]
      rfl

end Cert.KernelIdeal.Pieces

end
-- ==== Proof.Spec.lean ====
/-
  The quantities both programs compute, as functions of the embeddings `x : [262144, 256]` and the labels
  `l : [262144]` (32-bit words), index by index over the extended reals.

  For a class `c` the indicator of row `r` is `oh c (l r)`: one when the label word of the row is the word of `c`,
  zero otherwise. The three class sums are the count `cntN`, the coordinate sums `sumN` and the sum of squared norms
  `sqN`, each a sum over ALL rows of the indicator times the row's term. A row whose label is the word of no class
  below 128 (a negative label, or one past 127) has indicator zero for every class and contributes nothing.

  The kernel visits the rows in the order (core p, step i, lane k) ↦ row (32 p + i) · 4096 + k; `sum_rows` says a sum
  over all rows is the triple sum in that order.
-/
import Idealize.ShloMosaic.PureOps.Ideal
import Idealize.ShloMosaic.Lib.ValueIdx

noncomputable section

namespace Cert.ClassSums

open Idealize.ShloMosaic Idealize.ShloMosaic.ValueIdx

/-- The shapes of the two arguments, as literals (each program's own abbreviations unfold to these). -/
abbrev SX : Shape := ⟨2, ![262144, 256]⟩
abbrev SL : Shape := ⟨1, ![262144]⟩

/-- The indicator that the label word `w` is class `c`'s word. -/
def oh (c : Nat) (w : BitVec 32) : EReal := if BitVec.ofNat 32 c = w then 1 else 0

theorem oh_eq_zero_or_one (c : Nat) (w : BitVec 32) : oh c w = 0 ∨ oh c w = 1 := by
  unfold oh; split <;> simp

/-- For a class below 2^31 the signed reading of the label word is `c` exactly when the word is `c`'s word. -/
theorem toInt_eq_iff (c : Nat) (hc : c < 2 ^ 31) (w : BitVec 32) : w.toInt = (c : Int) ↔ BitVec.ofNat 32 c = w := by
  have hw := w.isLt
  constructor
  · intro h
    apply BitVec.eq_of_toNat_eq
    rw [BitVec.toNat_ofNat]
    rw [BitVec.toInt_eq_toNat_cond] at h
    split at h <;> omega
  · intro h
    subst h
    rw [BitVec.toInt_eq_toNat_cond, BitVec.toNat_ofNat]
    have hmod : c % 2 ^ 32 = c := Nat.mod_eq_of_lt (by omega)
    rw [hmod]
    split <;> omega

/-- The row the kernel reads on core `p`, at step `i` of that core, in lane `k` of the step's block. -/
def rowIx (p : Fin 2) (i : Fin 32) (k : Fin 4096) : Fin 262144 :=
  ⟨(32 * p.val + i.val) * 4096 + k.val, by have := p.isLt; have := i.isLt; have := k.isLt; omega⟩

/-- A sum over all rows, in the kernel's order of visiting them. -/
theorem sum_rows {M : Type*} [AddCommMonoid M] (f : Fin 262144 → M) :
    ∑ r : Fin 262144, f r = ∑ p : Fin 2, ∑ i : Fin 32, ∑ k : Fin 4096, f (rowIx p i k) := by
  have hbij : Function.Bijective (fun q : (Fin 2 × Fin 32) × Fin 4096 => rowIx q.1.1 q.1.2 q.2) := by
    rw [Fintype.bijective_iff_injective_and_card]
    refine ⟨?_, by simp⟩
    rintro ⟨⟨p, i⟩, k⟩ ⟨⟨p', i'⟩, k'⟩ h
    simp only [rowIx, Fin.mk.injEq] at h
    have hp := p.isLt; have hi := i.isLt; have hk := k.isLt
    have hp' := p'.isLt; have hi' := i'.isLt; have hk' := k'.isLt
    have e1 : p = p' := Fin.ext (by omega)
    have e2 : i = i' := Fin.ext (by omega)
    have e3 : k = k' := Fin.ext (by omega)
    rw [e1, e2, e3]
  rw [← Fintype.sum_bijective _ hbij (fun q => f (rowIx q.1.1 q.1.2 q.2)) f (fun _ => rfl)]
  rw [Fintype.sum_prod_type, Fintype.sum_prod_type]

/-- The number of rows of class `c`. -/
def cntN (l : SL.Idx → BitVec 32) (c : Nat) : EReal := ∑ r : Fin 262144, oh c (l (ix1 r))

/-- Coordinate `d` of the sum of the rows of class `c`. -/
def sumN (x : SX.Idx → EReal) (l : SL.Idx → BitVec 32) (c : Nat) (d : Fin 256) : EReal :=
  ∑ r : Fin 262144, oh c (l (ix1 r)) * x (ix2 r d)

/-- The sum of the squared norms of the rows of class `c`. -/
def sqN (x : SX.Idx → EReal) (l : SL.Idx → BitVec 32) (c : Nat) : EReal :=
  ∑ r : Fin 262144, oh c (l (ix1 r)) * ∑ d : Fin 256, x (ix2 r d) * x (ix2 r d)

/-- Coordinate `d` of the centroid of class `c`: the coordinate sum over the count, the count taken as at least one. -/
def centN (x : SX.Idx → EReal) (l : SL.Idx → BitVec 32) (c : Nat) (d : Fin 256) : EReal :=
  Ideal.div (sumN x l c d) (max (cntN l c) 1)

/-- The sum, over the rows of class `c`, of the squared distance to the class centroid. -/
def distN (x : SX.Idx → EReal) (l : SL.Idx → BitVec 32) (c : Nat) : EReal :=
  ∑ r : Fin 262144, oh c (l (ix1 r)) * ∑ d : Fin 256, (x (ix2 r d) - centN x l c d) * (x (ix2 r d) - centN x l c d)

/-- The same quantity by the variance identity: squared norms less count times the centroid's squared norm, not below zero. -/
def varN (x : SX.Idx → EReal) (l : SL.Idx → BitVec 32) (c : Nat) : EReal :=
  max (sqN x l c - cntN l c * ∑ d : Fin 256, centN x l c d * centN x l c d) 0

end Cert.ClassSums

end
-- ==== Proof.KPayload.lean ====
/-
  The kernel body's stored values at an index, over the extended reals.

  At one grid point the body holds the label block `lab : [1, 1, 4096]` and the embedding block `emb : [4096, 256]`.
  Its one-hot matrix has entry (c, k) equal to the indicator that lane `k`'s label word is class `c`'s word, for the
  128 class rows. The three stores add to what the output block held: for the sums the matrix product of the one-hot
  matrix with the block (entry (c, d): the sum over lanes of indicator times `emb k d`), for the counts the row sums of
  the one-hot matrix, for the squared norms the row sums of the one-hot matrix times the lanes' squared norms. A change
  of float format is the identity here, so the bf16 casts before the product drop out. The three reset stores write zero.
-/
import proofs.«416044_j549755813958_3_alg».proof.Proof.Gen.KernelIdeal.Skeleton
import proofs.«416044_j549755813958_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.ClassSums

variable (lab : Vec Ideal S1x1x4096 .i32) (emb : Vec Ideal S4096x256 .f32)

/-- The reset stores write zero. -/
theorem zero_sums (j : S1x128x256.Idx) : k0_pay3 (F := Ideal) j = 0 := by
  exact Ideal.ofBits_zero_f32
theorem zero_counts (j : S1x128x1.Idx) : k0_pay4 (F := Ideal) j = 0 := by
  exact Ideal.ofBits_zero_f32
theorem zero_sq (j : S1x128x1.Idx) : k0_pay5 (F := Ideal) j = 0 := by
  exact Ideal.ofBits_zero_f32

/-! ## The one-hot matrix at an entry -/

/-- The equality test of two words, widened to a word and read as a signed integer, is one when the words are equal and
    zero when they are not. -/
theorem sitofp_cmpi_eq (A B : BitVec 32) :
    (FloatOps.sitofp (F := Ideal) .f32 ((IntOp.cmpi .eq A B).setWidth 32) : EReal) = if A = B then 1 else 0 := by
  show ((((IntOp.cmpi .eq A B).setWidth 32).toInt : ℝ) : EReal) = _
  by_cases h : A = B
  · rw [if_pos h]
    have e : IntOp.cmpi .eq A B = 1#1 := by simp [IntOp.cmpi, h]
    rw [e]; norm_num
  · rw [if_neg h]
    have e : IntOp.cmpi .eq A B = 0#1 := by
      simp only [IntOp.cmpi]; rw [show (A == B) = false from beq_eq_false_iff_ne.mpr h]; rfl
    rw [e]; simp

/-- Entry (c, k) of the one-hot matrix: the row coordinate's word is class `c`'s word, the broadcast label row reads
    lane `k`'s label, so the entry is the indicator that lane `k` is of class `c`. -/
theorem onehot_apply (c : Fin 128) (k : Fin 4096) :
    k0_pay7 (F := Ideal) lab (ix2 c k) = oh c.val (lab (ix3 0 0 k)) := by
  unfold k0_pay7 k0_pay6
  show FloatOps.sitofp (F := Ideal) .f32 ((IntOp.cmpi .eq (iota .tc S128x4096 32 [0] _ (ix2 c k)) (broadcastTo S128x4096 (shapeCast S1x4096 lab _) _ (ix2 c k))).setWidth 32) = _
  rw [iota_single_apply, broadcastTo_1b_ab_apply, shapeCast_1ab_ab_apply, sitofp_cmpi_eq]
  rfl

/-! ## The layout operations and the sums at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `c` of a `[128, 4096]` matrix with lane `k` put back is entry `(c, k)`. -/
theorem lift_row (h : S128x4096.Reduces [1] S128) (c : Fin 128) (k : Fin 4096) : h.lift (ix1 c) k = ix2 c k :=
  funext fun a => Fin.ext (match a with | ⟨0, _⟩ => rfl | ⟨1, _⟩ => rfl)

/-- Row `k` of a `[4096, 256]` matrix with coordinate `d` put back is entry `(k, d)`. -/
theorem lift_lane (h : S4096x256.Reduces [1] S4096) (k : Fin 4096) (d : Fin 256) : h.lift (ix1 k) d = ix2 k d :=
  funext fun a => Fin.ext (match a with | ⟨0, _⟩ => rfl | ⟨1, _⟩ => rfl)

/-- The sum of a `[128, 4096]` matrix along its rows, at row `c`: the sum over the lanes of the row's entries. -/
theorem rowsum_apply (X : FVec Ideal S128x4096 .f32) (h : S128x4096.Reduces [1] S128) (hφ : FKind.Formats .f32)
    (hacc : (0x00000000#32 : BitVec (FTy.bits .f32)) = FKind.add.neutral .f32 hφ) (c : Fin 128) :
    multiReduction (F := Ideal) .add [1] S128 X 0x00000000#32 h hφ hacc (ix1 c) = ∑ k : Fin 4096, X (ix2 c k) := by
  refine (Ideal.multiReduction_add_single X _ h hφ hacc (ix1 c)).trans ?_
  exact Finset.sum_congr rfl fun k _ => congrArg X (lift_row h c k)

/-- The sum of a `[4096, 256]` matrix along its rows, at row `k`: the sum over the coordinates of the row's entries. -/
theorem lanesum_apply (X : FVec Ideal S4096x256 .f32) (h : S4096x256.Reduces [1] S4096) (hφ : FKind.Formats .f32)
    (hacc : (0x00000000#32 : BitVec (FTy.bits .f32)) = FKind.add.neutral .f32 hφ) (k : Fin 4096) :
    multiReduction (F := Ideal) .add [1] S4096 X 0x00000000#32 h hφ hacc (ix1 k) = ∑ d : Fin 256, X (ix2 k d) := by
  refine (Ideal.multiReduction_add_single X _ h hφ hacc (ix1 k)).trans ?_
  exact Finset.sum_congr rfl fun d _ => congrArg X (lift_lane h k d)

/-! ## The matrix product at an entry -/

/-- The left operand's index has the result's row on axis 0 … -/
theorem lhs_dot_0 (i : S128x256.Idx) (q : dot_S128x4096_S4096x256_S128x256_1_0_0_1_n_n.contr.Idx) :
    (dot_S128x4096_S4096x256_S128x256_1_0_0_1_n_n.lhsIdx i q 0).val = (i 0).val := by
  unfold DotDims.lhsIdx
  rw [dif_neg (show ¬(0 : Fin S128x4096.rank) ∈ dot_S128x4096_S4096x256_S128x256_1_0_0_1_n_n.lhsBatch by decide),
    dif_pos (show (0 : Fin S128x4096.rank) ∈ dot_S128x4096_S4096x256_S128x256_1_0_0_1_n_n.lhsNonContracting by decide)]
  rfl
/-- … and the contraction position on axis 1; -/
theorem lhs_dot_1 (i : S128x256.Idx) (q : dot_S128x4096_S4096x256_S128x256_1_0_0_1_n_n.contr.Idx) :
    (dot_S128x4096_S4096x256_S128x256_1_0_0_1_n_n.lhsIdx i q 1).val = (q ⟨0, by decide⟩).val :=
  dot_S128x4096_S4096x256_S128x256_1_0_0_1_n_n.lhsIdx_val_of_single rfl i q
/-- the right operand's index has the contraction position on axis 0 … -/
theorem rhs_dot_0 (i : S128x256.Idx) (q : dot_S128x4096_S4096x256_S128x256_1_0_0_1_n_n.contr.Idx) :
    (dot_S128x4096_S4096x256_S128x256_1_0_0_1_n_n.rhsIdx i q 0).val = (q ⟨0, by decide⟩).val :=
  dot_S128x4096_S4096x256_S128x256_1_0_0_1_n_n.rhsIdx_val_of_single rfl i q
/-- … and the result's column on axis 1. -/
theorem rhs_dot_1 (i : S128x256.Idx) (q : dot_S128x4096_S4096x256_S128x256_1_0_0_1_n_n.contr.Idx) :
    (dot_S128x4096_S4096x256_S128x256_1_0_0_1_n_n.rhsIdx i q 1).val = (i 1).val := by
  unfold DotDims.rhsIdx
  rw [dif_neg (show ¬(1 : Fin S4096x256.rank) ∈ dot_S128x4096_S4096x256_S128x256_1_0_0_1_n_n.rhsBatch by decide),
    dif_pos (show (1 : Fin S4096x256.rank) ∈ dot_S128x4096_S4096x256_S128x256_1_0_0_1_n_n.rhsNonContracting by decide)]
  rfl

/-- The product of a `[128, 4096]` and a `[4096, 256]` matrix onto zero, at entry `(c, d)`: the sum over the 4096
    lanes of the products of the entries `(c, k)` and `(k, d)`. -/
theorem matmul_read (A : FVec Ideal S128x4096 .bf16) (B : FVec Ideal S4096x256 .bf16) (c : Fin 128) (d : Fin 256) :
    matmul dot_S128x4096_S4096x256_S128x256_1_0_0_1_n_n none A B (constant (F := Ideal) S128x256 .f32 0x00000000#32) (ix2 c d)
      = ∑ k : Fin 4096, A (ix2 c k) * B (ix2 k d) := by
  refine (Ideal.matmul_constant_zero_apply dot_S128x4096_S4096x256_S128x256_1_0_0_1_n_n none A B (ix2 c d)).trans ?_
  rw [← Equiv.sum_comp (contrEquiv1 dot_S128x4096_S4096x256_S128x256_1_0_0_1_n_n 4096 rfl rfl).symm]
  refine Finset.sum_congr rfl fun k _ => ?_
  have hk := contrEquiv1_symm_val dot_S128x4096_S4096x256_S128x256_1_0_0_1_n_n 4096 rfl rfl k
  have el : dot_S128x4096_S4096x256_S128x256_1_0_0_1_n_n.lhsIdx (ix2 c d) ((contrEquiv1 dot_S128x4096_S4096x256_S128x256_1_0_0_1_n_n 4096 rfl rfl).symm k) = ix2 c k :=
    funext fun a => Fin.ext (by
      match a with
      | ⟨0, _⟩ => exact lhs_dot_0 _ _
      | ⟨1, _⟩ => exact (lhs_dot_1 _ _).trans hk)
  have er : dot_S128x4096_S4096x256_S128x256_1_0_0_1_n_n.rhsIdx (ix2 c d) ((contrEquiv1 dot_S128x4096_S4096x256_S128x256_1_0_0_1_n_n 4096 rfl rfl).symm k) = ix2 k d :=
    funext fun a => Fin.ext (by
      match a with
      | ⟨0, _⟩ => exact (rhs_dot_0 _ _).trans hk
      | ⟨1, _⟩ => exact rhs_dot_1 _ _)
  rw [el, er]

/-! ## The three stores -/

/-- The sums' store: what the block held plus the one-hot matrix times the embedding block. -/
theorem sums_store (acc : Vec Ideal S1x128x256 .f32) (c : Fin 128) (d : Fin 256) :
    k0_pay9 (F := Ideal) lab emb acc (ix3 0 c d)
      = acc (ix3 0 c d) + ∑ k : Fin 4096, oh c.val (lab (ix3 0 0 k)) * emb (ix2 k d) := by
  unfold k0_pay9
  refine (shapeCast_ab_1ab_apply _ _ (0 : Fin 1) c d).trans ?_
  refine (addf_apply _ _ _).trans ?_
  refine congrArg₂ (· + ·) (shapeCast_1ab_ab_apply acc _ c d) ?_
  refine (matmul_read _ _ c d).trans ?_
  refine Finset.sum_congr rfl fun k _ => ?_
  exact congrArg₂ (· * ·) (onehot_apply lab c k) rfl

/-- The counts' store: what the block held plus the row sum of the one-hot matrix. -/
theorem counts_store (acc : Vec Ideal S1x128x1 .f32) (c : Fin 128) :
    k0_pay1 (F := Ideal) (k0_pay10 (F := Ideal) lab acc) (ix3 0 c 0)
      = acc (ix3 0 c 0) + ∑ k : Fin 4096, oh c.val (lab (ix3 0 0 k)) := by
  unfold k0_pay1 k0_pay10
  refine (shapeCast_ab_1ab_apply _ _ (0 : Fin 1) c (0 : Fin 1)).trans ?_
  refine (addf_apply _ _ _).trans ?_
  refine congrArg₂ (· + ·) (shapeCast_1ab_ab_apply acc _ c (0 : Fin 1)) ?_
  refine (shapeCast_a_a1_apply _ _ c (0 : Fin 1)).trans ?_
  refine (rowsum_apply _ _ _ _ c).trans ?_
  exact Finset.sum_congr rfl fun k _ => onehot_apply lab c k

/-- The squared norms' store: what the block held plus the row sum of the one-hot matrix weighted by the lanes' squared norms. -/
theorem sq_store (acc : Vec Ideal S1x128x1 .f32) (c : Fin 128) :
    k0_pay2 (F := Ideal) (k0_pay8 (F := Ideal) lab emb) acc (ix3 0 c 0)
      = acc (ix3 0 c 0) + ∑ k : Fin 4096, oh c.val (lab (ix3 0 0 k)) * ∑ d : Fin 256, emb (ix2 k d) * emb (ix2 k d) := by
  unfold k0_pay2 k0_pay8
  refine (shapeCast_ab_1ab_apply _ _ (0 : Fin 1) c (0 : Fin 1)).trans ?_
  refine (addf_apply _ _ _).trans ?_
  refine congrArg₂ (· + ·) (shapeCast_1ab_ab_apply acc _ c (0 : Fin 1)) ?_
  refine (shapeCast_a_a1_apply _ _ c (0 : Fin 1)).trans ?_
  refine (rowsum_apply _ _ _ _ c).trans ?_
  refine Finset.sum_congr rfl fun k _ => ?_
  refine (mulf_apply _ _ _).trans ?_
  refine congrArg₂ (· * ·) (onehot_apply lab c k) ?_
  refine (broadcastTo_1b_ab_apply _ _ c k).trans ?_
  refine (transpose_ix2_apply _ _ (0 : Fin 1) k).trans ?_
  refine (shapeCast_a_a1_apply _ _ k (0 : Fin 1)).trans ?_
  refine (lanesum_apply _ _ _ _ k).trans ?_
  rfl

end Cert.KernelIdeal.Payload

end
-- ==== Proof.Groups.lean ====
/-
  The grid's 64 points fall into two groups of 32 consecutive points (point n is in group n / 32). These are the
  facts about a group's points up to a given point that the running totals' induction uses, stated for a point type
  `Fin N` with `N = 64` given as a hypothesis.

  `upTo N n` is the set of points of n's group that are not after n. At a group's first point it is that point
  alone; at any other point it is the set of the point before with the point added; at a group's last point it is the
  whole group. A sum over a whole group is the sum over its 32 offsets.
-/
import Mathlib.Algebra.BigOperators.Fin
import Mathlib.Data.Fintype.BigOperators
import Mathlib.Tactic.Ring
import Mathlib.Tactic.Linarith

namespace Cert.ClassSums

/-- The points of `n`'s group of 32 that are not after `n`. -/
def upTo (N : ℕ) (n : ℕ) : Finset (Fin N) := Finset.univ.filter (fun s => s.val / 32 = n / 32 ∧ s.val ≤ n)

/-- The points of group `p`. -/
def group (N : ℕ) (p : ℕ) : Finset (Fin N) := Finset.univ.filter (fun s => s.val / 32 = p)

theorem upTo_first {N : ℕ} (n : ℕ) (hn : n < N) (h : n % 32 = 0) : upTo N n = {⟨n, hn⟩} := by
  ext s
  simp only [upTo, Finset.mem_filter, Finset.mem_univ, true_and, Finset.mem_singleton, Fin.ext_iff]
  omega

theorem upTo_succ {N : ℕ} (n : ℕ) (hn : n + 1 < N) (h : ¬(n + 1) % 32 = 0) :
    upTo N (n + 1) = insert ⟨n + 1, hn⟩ (upTo N n) := by
  ext s
  simp only [upTo, Finset.mem_filter, Finset.mem_univ, true_and, Finset.mem_insert, Fin.ext_iff]
  omega

theorem not_mem_upTo {N : ℕ} (n : ℕ) (hn : n + 1 < N) : (⟨n + 1, hn⟩ : Fin N) ∉ upTo N n := by
  simp only [upTo, Finset.mem_filter, Finset.mem_univ, true_and]
  omega

theorem upTo_last {N : ℕ} (n : ℕ) (h : n % 32 = 31) : upTo N n = group N (n / 32) := by
  ext s
  simp only [upTo, group, Finset.mem_filter, Finset.mem_univ, true_and]
  omega

/-- A sum over group `p` of the 64 points is the sum over the group's 32 offsets. -/
theorem sum_group {M : Type*} [AddCommMonoid M] {N : ℕ} (hN : N = 64) (p : Fin 2) (f : Fin N → M) :
    ∑ s ∈ group N p.val, f s
      = ∑ i : Fin 32, f ⟨32 * p.val + i.val, by have := p.isLt; have := i.isLt; omega⟩ := by
  subst hN
  symm
  refine Finset.sum_bij'
    (fun i _ => (⟨32 * p.val + i.val, by have := p.isLt; have := i.isLt; omega⟩ : Fin 64))
    (fun s _ => (⟨s.val % 32, Nat.mod_lt _ (by norm_num)⟩ : Fin 32)) ?_ ?_ ?_ ?_ ?_
  · intro i _
    have := i.isLt
    simp only [group, Finset.mem_filter, Finset.mem_univ, true_and]
    omega
  · intro s _
    exact Finset.mem_univ _
  · intro i _
    have := i.isLt
    apply Fin.ext
    show (32 * p.val + i.val) % 32 = i.val
    omega
  · intro s hs
    simp only [group, Finset.mem_filter, Finset.mem_univ, true_and] at hs
    apply Fin.ext
    show 32 * p.val + s.val % 32 = s.val
    omega
  · intro i _
    rfl

end Cert.ClassSums
-- ==== Proof.KArrays.lean ====
/-
  What the pallas_call's three result arrays hold when the run ends, over the extended reals.

  Each point of the grid adds its contribution to the three output blocks: for class row cc, the sum over the point's
  4096 lanes of the lane's class indicator, times the lane's embedding coordinate (sums), times one (counts), times the
  lane's squared norm (squared norms). The running totals after point n are therefore the sums of the contributions
  over the points of n's group of 32 up to n: at a group's first point the block starts from zero, at any other point
  from the totals of the point before (`acc_sums`, `acc_counts`, `acc_sq`, by induction on the point).

  A group's block is written back to its array once, after the group's last point, and the two groups' blocks tile
  the array (block p is the slab [p, :, :]); so each array ends holding, at (p, cc, ·), group p's total. Point t's
  lane k is row 4096 t + k of the embeddings, and label 4096 t + k: the labels reach the call through the host's
  reshape to [64, 1, 4096], which keeps the row-major position. `A2_apply`, `A3_apply`, `A4_apply` state the
  totals over the arguments in that order of visiting the rows.
-/
import proofs.«416044_j549755813958_3_alg».proof.Proof.KPieces
import proofs.«416044_j549755813958_3_alg».proof.Proof.KPayload
import proofs.«416044_j549755813958_3_alg».proof.Proof.Groups
import proofs.«416044_j549755813958_3_alg».proof.Proof.Spec
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.KernelIdeal.Pieces Cert.ClassSums

variable (m : (ℓ : Loc nD τ sig) → Buf (Elt Ideal) ℓ)

/-! ## One point's contributions -/

/-- Point `t`'s contribution to the sums block at class row `cc`, coordinate `d`. -/
def part2 (c : Dev nD) (t : Fin cfg0.N) (cc : Fin 128) (d : Fin 256) : EReal :=
  ∑ k : Fin 4096, oh cc.val (labBlk m c t (ix3 0 0 k)) * embBlk m c t (ix2 k d)

/-- Point `t`'s contribution to the counts block at class row `cc`. -/
def part3 (c : Dev nD) (t : Fin cfg0.N) (cc : Fin 128) : EReal :=
  ∑ k : Fin 4096, oh cc.val (labBlk m c t (ix3 0 0 k))

/-- Point `t`'s contribution to the squared-norms block at class row `cc`. -/
def part4 (c : Dev nD) (t : Fin cfg0.N) (cc : Fin 128) : EReal :=
  ∑ k : Fin 4096, oh cc.val (labBlk m c t (ix3 0 0 k)) * ∑ d : Fin 256, embBlk m c t (ix2 k d) * embBlk m c t (ix2 k d)

/-! ## The running totals are sums of contributions over the group's points so far -/

theorem acc_sums (c : Dev nD) : ∀ (n : ℕ) (h : n < cfg0.N) (cc : Fin 128) (d : Fin 256),
    (acc m c n h).1 (ix3 0 cc d) = ∑ s ∈ upTo cfg0.N n, part2 m c s cc d
  | 0, h, cc, d => by
    show k0_pay9 (F := Ideal) (labBlk m c ⟨0, h⟩) (embBlk m c ⟨0, h⟩) (k0_pay3 (F := Ideal)) (ix3 0 cc d) = _
    rw [Payload.sums_store, Payload.zero_sums, zero_add, upTo_first 0 h rfl, Finset.sum_singleton]
    rfl
  | n + 1, h, cc, d => by
    by_cases h0 : (n + 1) % 32 = 0
    · have e : acc m c (n + 1) h = step (labBlk m c ⟨n + 1, h⟩) (embBlk m c ⟨n + 1, h⟩) zeros := by
        simp only [acc, if_pos h0]
      rw [e]
      show k0_pay9 (F := Ideal) (labBlk m c ⟨n + 1, h⟩) (embBlk m c ⟨n + 1, h⟩) (k0_pay3 (F := Ideal)) (ix3 0 cc d) = _
      rw [Payload.sums_store, Payload.zero_sums, zero_add, upTo_first (n + 1) h h0, Finset.sum_singleton]
      rfl
    · have e : acc m c (n + 1) h = step (labBlk m c ⟨n + 1, h⟩) (embBlk m c ⟨n + 1, h⟩) (acc m c n (Nat.lt_of_succ_lt h)) := by
        simp only [acc, if_neg h0]
      rw [e]
      show k0_pay9 (F := Ideal) (labBlk m c ⟨n + 1, h⟩) (embBlk m c ⟨n + 1, h⟩) (acc m c n (Nat.lt_of_succ_lt h)).1 (ix3 0 cc d) = _
      rw [Payload.sums_store, acc_sums c n (Nat.lt_of_succ_lt h) cc d, upTo_succ n h h0, Finset.sum_insert (not_mem_upTo n h), add_comm]
      rfl

theorem acc_counts (c : Dev nD) : ∀ (n : ℕ) (h : n < cfg0.N) (cc : Fin 128),
    (acc m c n h).2.1 (ix3 0 cc 0) = ∑ s ∈ upTo cfg0.N n, part3 m c s cc
  | 0, h, cc => by
    show k0_pay1 (F := Ideal) (k0_pay10 (F := Ideal) (labBlk m c ⟨0, h⟩) (k0_pay4 (F := Ideal))) (ix3 0 cc 0) = _
    rw [Payload.counts_store, Payload.zero_counts, zero_add, upTo_first 0 h rfl, Finset.sum_singleton]
    rfl
  | n + 1, h, cc => by
    by_cases h0 : (n + 1) % 32 = 0
    · have e : acc m c (n + 1) h = step (labBlk m c ⟨n + 1, h⟩) (embBlk m c ⟨n + 1, h⟩) zeros := by
        simp only [acc, if_pos h0]
      rw [e]
      show k0_pay1 (F := Ideal) (k0_pay10 (F := Ideal) (labBlk m c ⟨n + 1, h⟩) (k0_pay4 (F := Ideal))) (ix3 0 cc 0) = _
      rw [Payload.counts_store, Payload.zero_counts, zero_add, upTo_first (n + 1) h h0, Finset.sum_singleton]
      rfl
    · have e : acc m c (n + 1) h = step (labBlk m c ⟨n + 1, h⟩) (embBlk m c ⟨n + 1, h⟩) (acc m c n (Nat.lt_of_succ_lt h)) := by
        simp only [acc, if_neg h0]
      rw [e]
      show k0_pay1 (F := Ideal) (k0_pay10 (F := Ideal) (labBlk m c ⟨n + 1, h⟩) (acc m c n (Nat.lt_of_succ_lt h)).2.1) (ix3 0 cc 0) = _
      rw [Payload.counts_store, acc_counts c n (Nat.lt_of_succ_lt h) cc, upTo_succ n h h0, Finset.sum_insert (not_mem_upTo n h), add_comm]
      rfl

theorem acc_sq (c : Dev nD) : ∀ (n : ℕ) (h : n < cfg0.N) (cc : Fin 128),
    (acc m c n h).2.2 (ix3 0 cc 0) = ∑ s ∈ upTo cfg0.N n, part4 m c s cc
  | 0, h, cc => by
    show k0_pay2 (F := Ideal) (k0_pay8 (F := Ideal) (labBlk m c ⟨0, h⟩) (embBlk m c ⟨0, h⟩)) (k0_pay5 (F := Ideal)) (ix3 0 cc 0) = _
    rw [Payload.sq_store, Payload.zero_sq, zero_add, upTo_first 0 h rfl, Finset.sum_singleton]
    rfl
  | n + 1, h, cc => by
    by_cases h0 : (n + 1) % 32 = 0
    · have e : acc m c (n + 1) h = step (labBlk m c ⟨n + 1, h⟩) (embBlk m c ⟨n + 1, h⟩) zeros := by
        simp only [acc, if_pos h0]
      rw [e]
      show k0_pay2 (F := Ideal) (k0_pay8 (F := Ideal) (labBlk m c ⟨n + 1, h⟩) (embBlk m c ⟨n + 1, h⟩)) (k0_pay5 (F := Ideal)) (ix3 0 cc 0) = _
      rw [Payload.sq_store, Payload.zero_sq, zero_add, upTo_first (n + 1) h h0, Finset.sum_singleton]
      rfl
    · have e : acc m c (n + 1) h = step (labBlk m c ⟨n + 1, h⟩) (embBlk m c ⟨n + 1, h⟩) (acc m c n (Nat.lt_of_succ_lt h)) := by
        simp only [acc, if_neg h0]
      rw [e]
      show k0_pay2 (F := Ideal) (k0_pay8 (F := Ideal) (labBlk m c ⟨n + 1, h⟩) (embBlk m c ⟨n + 1, h⟩)) (acc m c n (Nat.lt_of_succ_lt h)).2.2 (ix3 0 cc 0) = _
      rw [Payload.sq_store, acc_sq c n (Nat.lt_of_succ_lt h) cc, upTo_succ n h h0, Finset.sum_insert (not_mem_upTo n h), add_comm]
      rfl

/-! ## The blocks, read off the arguments -/

/-- The index maps, decided over the grid: the input blocks follow the point, the output blocks the point's group. -/
theorem idx_in0 : ∀ t : Fin cfg0.N, win0_0.index t 0 = t.val ∧ win0_0.index t 1 = 0 :=
  (by decide +kernel : ∀ t : Fin grid0.N, win0_0.index t 0 = t.val ∧ win0_0.index t 1 = 0)
theorem idx_in1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx_out2 : ∀ t : Fin cfg0.N, win0_2.index t 0 = t.val / 32 ∧ win0_2.index t 1 = 0 ∧ win0_2.index t 2 = 0 :=
  (by decide +kernel : ∀ t : Fin grid0.N, win0_2.index t 0 = t.val / 32 ∧ win0_2.index t 1 = 0 ∧ win0_2.index t 2 = 0)
theorem idx_out3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)
theorem idx_out4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- Lane `k` of point `t`'s embedding block is row `4096 t + k` of the embeddings. -/
theorem emb_read (c : Dev nD) (t : Fin cfg0.N) (k : Fin 4096) (d : Fin 256) (hr : t.val * 4096 + k.val < 262144) :
    embBlk m c t (ix2 k d) = m ((c.tc : Thread nD τ).loc main_arg0) (ix2 ⟨t.val * 4096 + k.val, hr⟩ d) := by
  have hi := idx_in0 t
  show iblk m c 0 t (ix2 k d) = _
  unfold iblk
  rw [View.read_apply]
  show V m c main_arg0 _ = _
  refine (congrFun (V_main_arg0 m c) _).trans ?_
  refine congrArg _ (funext fun a => Fin.ext ?_)
  match a with
  | ⟨0, _⟩ => show win0_0.index t 0 * 4096 + 1 * k.val = t.val * 4096 + k.val; rw [hi.1]; omega
  | ⟨1, _⟩ => show win0_0.index t 1 * 256 + 1 * d.val = d.val; rw [hi.2]; omega

/-- The labels as the region finds them: the host's reshape of the argument to [64, 1, 4096]. -/
theorem V_labels (c : Dev nD) :
    (V m c main_v0 : S64x1x4096.Idx → BitVec 32)
      = shapeCast S64x1x4096 (m ((c.tc : Thread nD τ).loc main_arg1)) shapeCasts_S262144_S64x1x4096 := by
  dsimp only [V, V0]
  simp only [hostOps0, List.flatten_cons, List.flatten_nil, List.append_nil]
  after_results
  rfl

theorem lt64 (t : Fin cfg0.N) : t.val < 64 := lt_of_lt_of_eq t.isLt (show cfg0.N = 64 from N_0)

/-- Lane `k` of point `t`'s label block is label `4096 t + k`. -/
theorem lab_read (c : Dev nD) (t : Fin cfg0.N) (k : Fin 4096) (hr : t.val * 4096 + k.val < 262144) :
    labBlk m c t (ix3 0 0 k) = m ((c.tc : Thread nD τ).loc main_arg1) (ix1 ⟨t.val * 4096 + k.val, hr⟩) := by
  have hi := idx_in1 t
  have ht := lt64 t
  show iblk m c 1 t (ix3 0 0 k) = _
  unfold iblk
  rw [View.read_apply]
  have ej : ((cfg0.win 1).blk t).view.emb (ix3 0 0 k) = (ix3 ⟨t.val, ht⟩ 0 k : S64x1x4096.Idx) :=
    funext fun a => Fin.ext (by
      match a with
      | ⟨0, _⟩ => show win0_1.index t 0 * 1 + 1 * 0 = t.val; rw [hi.1]; omega
      | ⟨1, _⟩ => show win0_1.index t 1 * 1 + 1 * 0 = 0; rw [hi.2.1]
      | ⟨2, _⟩ => show win0_1.index t 2 * 4096 + 1 * k.val = k.val; rw [hi.2.2]; omega)
  rw [ej]
  show V m c main_v0 _ = _
  refine (congrFun (V_labels m c) _).trans (shapeCast_apply _ _ _ _ ?_)
  show (S262144.rowMajor (ix1 ⟨t.val * 4096 + k.val, hr⟩)).val = (S64x1x4096.rowMajor (ix3 ⟨t.val, ht⟩ 0 k)).val
  rw [Shape.rowMajor_val_one, Shape.rowMajor_val_three]
  show t.val * 4096 + k.val = (t.val * 1 + 0) * 4096 + k.val
  omega

/-! ## The three result arrays -/

/-- The sums array: at (core p, class row cc, coordinate d) the total of group p's contributions. -/
def A2 (c : Dev nD) : S2x128x256.Idx → EReal :=
  fun j => ∑ s ∈ group cfg0.N (j 0).val, part2 m c s ⟨(j 1).val, (j 1).isLt⟩ ⟨(j 2).val, (j 2).isLt⟩

/-- A group's last point writes its block of the sums array: the running total there is the group's total. -/
theorem flushed2 (c : Dev nD) (t : Fin cfg0.N) (hf : (cfg0.win 2).flush t = true) :
    (dats m 0 c).flushed 2 t = ((cfg0.win 2).blk t).view.read (Elt Ideal) (A2 m c) := by
  have h31 : t.val % 32 = 31 := (flush0_2 t).mp hf
  have hi := idx_out2 t
  show (cfg0.win 2).cut (grid0.coords t) ((dats m 0 c).after 2 t) = _
  rw [after0_2, outs_eq]
  funext y
  rw [View.read_apply]
  have hy0 : (y 0).val < 1 := (y 0).isLt
  have hy1 : (y 1).val < 128 := (y 1).isLt
  have hy2 : (y 2).val < 256 := (y 2).isLt
  have e1 : win0_2.xinj (grid0.coords t) y = (ix3 0 ⟨(y 1).val, hy1⟩ ⟨(y 2).val, hy2⟩ : S1x128x256.Idx) :=
    funext fun a => Fin.ext (by
      match a with
      | ⟨0, _⟩ => show (y 0).val = 0; omega
      | ⟨1, _⟩ => rfl
      | ⟨2, _⟩ => rfl)
  show (acc m c t.val t.isLt).1 (win0_2.xinj (grid0.coords t) y) = _
  rw [e1, acc_sums, upTo_last t.val h31]
  have hp : t.val / 32 < 2 := by have := lt64 t; omega
  have ee : ((cfg0.win 2).blk t).view.emb y = (ix3 ⟨t.val / 32, hp⟩ ⟨(y 1).val, hy1⟩ ⟨(y 2).val, hy2⟩ : S2x128x256.Idx) :=
    funext fun a => Fin.ext (by
      match a with
      | ⟨0, _⟩ => show win0_2.index t 0 * 1 + 1 * (y 0).val = t.val / 32; rw [hi.1]; omega
      | ⟨1, _⟩ => show win0_2.index t 1 * 128 + 1 * (y 1).val = (y 1).val; rw [hi.2.1]; omega
      | ⟨2, _⟩ => show win0_2.index t 2 * 256 + 1 * (y 2).val = (y 2).val; rw [hi.2.2]; omega)
  show _ = A2 m c (((cfg0.win 2).blk t).view.emb y)
  rw [ee]
  rfl

/-- Every index of the sums array is in the block its core's last point writes. -/
theorem cover2 (i : S2x128x256.Idx) : ∃ t : Fin cfg0.N, (cfg0.win 2).flush t = true ∧ i ∈ ((cfg0.win 2).blk t).view.set := by
  have h0 : (i 0 : Nat) < 2 := (i 0).isLt
  have h1 : (i 1 : Nat) < 128 := (i 1).isLt
  have h2 : (i 2 : Nat) < 256 := (i 2).isLt
  have hN : cfg0.N = 64 := N_0
  let t : Fin cfg0.N := ⟨32 * (i 0).val + 31, by rw [hN]; omega⟩
  have hi := idx_out2 t
  have ht : t.val = 32 * (i 0).val + 31 := rfl
  refine ⟨t, (flush0_2 t).mpr (by rw [ht]; omega), ?_⟩
  show i ∈ ((View.whole main_v1_0).slice (win0_2.rect t)).set
  rw [View.set_slice_whole, Rect.mem_set_unit]
  intro a
  match a with
  | ⟨0, _⟩ => show win0_2.index t 0 * 1 ≤ (i 0 : Nat) ∧ (i 0 : Nat) < win0_2.index t 0 * 1 + 1
              rw [hi.1, ht]; omega
  | ⟨1, _⟩ => show win0_2.index t 1 * 128 ≤ (i 1 : Nat) ∧ (i 1 : Nat) < win0_2.index t 1 * 128 + 128
              rw [hi.2.1]; omega
  | ⟨2, _⟩ => show win0_2.index t 2 * 256 ≤ (i 2 : Nat) ∧ (i 2 : Nat) < win0_2.index t 2 * 256 + 256
              rw [hi.2.2]; omega

/-- So the sums array ends holding the groups' totals. -/
theorem final2 (c : Dev nD) : (dats m 0 c).arrAt 2 cfg0.N = A2 m c :=
  (dats m 0 c).arrAt_eq_of_cover 2 (A2 m c) (flushed2 m c) cover2

/-- The counts array: at (core p, class row cc) the total of group p's contributions. -/
def A3 (c : Dev nD) : S2x128x1.Idx → EReal :=
  fun j => ∑ s ∈ group cfg0.N (j 0).val, part3 m c s ⟨(j 1).val, (j 1).isLt⟩

/-- A group's last point writes its block of the counts array: the running total there is the group's total. -/
theorem flushed3 (c : Dev nD) (t : Fin cfg0.N) (hf : (cfg0.win 3).flush t = true) :
    (dats m 0 c).flushed 3 t = ((cfg0.win 3).blk t).view.read (Elt Ideal) (A3 m c) := by
  have h31 : t.val % 32 = 31 := (flush0_3 t).mp hf
  have hi := idx_out3 t
  show (cfg0.win 3).cut (grid0.coords t) ((dats m 0 c).after 3 t) = _
  rw [after0_3, outs_eq]
  funext y
  rw [View.read_apply]
  have hy0 : (y 0).val < 1 := (y 0).isLt
  have hy1 : (y 1).val < 128 := (y 1).isLt
  have hy2 : (y 2).val < 1 := (y 2).isLt
  have e1 : win0_3.xinj (grid0.coords t) y = (ix3 0 ⟨(y 1).val, hy1⟩ 0 : S1x128x1.Idx) :=
    funext fun a => Fin.ext (by
      match a with
      | ⟨0, _⟩ => show (y 0).val = 0; omega
      | ⟨1, _⟩ => rfl
      | ⟨2, _⟩ => show (y 2).val = 0; omega)
  show (acc m c t.val t.isLt).2.1 (win0_3.xinj (grid0.coords t) y) = _
  rw [e1, acc_counts, upTo_last t.val h31]
  have hp : t.val / 32 < 2 := by have := lt64 t; omega
  have ee : ((cfg0.win 3).blk t).view.emb y = (ix3 ⟨t.val / 32, hp⟩ ⟨(y 1).val, hy1⟩ 0 : S2x128x1.Idx) :=
    funext fun a => Fin.ext (by
      match a with
      | ⟨0, _⟩ => show win0_3.index t 0 * 1 + 1 * (y 0).val = t.val / 32; rw [hi.1]; omega
      | ⟨1, _⟩ => show win0_3.index t 1 * 128 + 1 * (y 1).val = (y 1).val; rw [hi.2.1]; omega
      | ⟨2, _⟩ => show win0_3.index t 2 * 1 + 1 * (y 2).val = 0; rw [hi.2.2]; omega)
  show _ = A3 m c (((cfg0.win 3).blk t).view.emb y)
  rw [ee]
  rfl

/-- Every index of the counts array is in the block its core's last point writes. -/
theorem cover3 (i : S2x128x1.Idx) : ∃ t : Fin cfg0.N, (cfg0.win 3).flush t = true ∧ i ∈ ((cfg0.win 3).blk t).view.set := by
  have h0 : (i 0 : Nat) < 2 := (i 0).isLt
  have h1 : (i 1 : Nat) < 128 := (i 1).isLt
  have h2 : (i 2 : Nat) < 1 := (i 2).isLt
  have hN : cfg0.N = 64 := N_0
  let t : Fin cfg0.N := ⟨32 * (i 0).val + 31, by rw [hN]; omega⟩
  have hi := idx_out3 t
  have ht : t.val = 32 * (i 0).val + 31 := rfl
  refine ⟨t, (flush0_3 t).mpr (by rw [ht]; omega), ?_⟩
  show i ∈ ((View.whole main_v1_1).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1
              rw [hi.1, ht]; omega
  | ⟨1, _⟩ => show win0_3.index t 1 * 128 ≤ (i 1 : Nat) ∧ (i 1 : Nat) < win0_3.index t 1 * 128 + 128
              rw [hi.2.1]; omega
  | ⟨2, _⟩ => show win0_3.index t 2 * 1 ≤ (i 2 : Nat) ∧ (i 2 : Nat) < win0_3.index t 2 * 1 + 1
              rw [hi.2.2]; omega

/-- So the counts array ends holding the groups' totals. -/
theorem final3 (c : Dev nD) : (dats m 0 c).arrAt 3 cfg0.N = A3 m c :=
  (dats m 0 c).arrAt_eq_of_cover 3 (A3 m c) (flushed3 m c) cover3

/-- The squared-norms array: at (core p, class row cc) the total of group p's contributions. -/
def A4 (c : Dev nD) : S2x128x1.Idx → EReal :=
  fun j => ∑ s ∈ group cfg0.N (j 0).val, part4 m c s ⟨(j 1).val, (j 1).isLt⟩

/-- A group's last point writes its block of the squared-norms array: the running total there is the group's total. -/
theorem flushed4 (c : Dev nD) (t : Fin cfg0.N) (hf : (cfg0.win 4).flush t = true) :
    (dats m 0 c).flushed 4 t = ((cfg0.win 4).blk t).view.read (Elt Ideal) (A4 m c) := by
  have h31 : t.val % 32 = 31 := (flush0_4 t).mp hf
  have hi := idx_out4 t
  show (cfg0.win 4).cut (grid0.coords t) ((dats m 0 c).after 4 t) = _
  rw [after0_4, outs_eq]
  funext y
  rw [View.read_apply]
  have hy0 : (y 0).val < 1 := (y 0).isLt
  have hy1 : (y 1).val < 128 := (y 1).isLt
  have hy2 : (y 2).val < 1 := (y 2).isLt
  have e1 : win0_4.xinj (grid0.coords t) y = (ix3 0 ⟨(y 1).val, hy1⟩ 0 : S1x128x1.Idx) :=
    funext fun a => Fin.ext (by
      match a with
      | ⟨0, _⟩ => show (y 0).val = 0; omega
      | ⟨1, _⟩ => rfl
      | ⟨2, _⟩ => show (y 2).val = 0; omega)
  show (acc m c t.val t.isLt).2.2 (win0_4.xinj (grid0.coords t) y) = _
  rw [e1, acc_sq, upTo_last t.val h31]
  have hp : t.val / 32 < 2 := by have := lt64 t; omega
  have ee : ((cfg0.win 4).blk t).view.emb y = (ix3 ⟨t.val / 32, hp⟩ ⟨(y 1).val, hy1⟩ 0 : S2x128x1.Idx) :=
    funext fun a => Fin.ext (by
      match a with
      | ⟨0, _⟩ => show win0_4.index t 0 * 1 + 1 * (y 0).val = t.val / 32; rw [hi.1]; omega
      | ⟨1, _⟩ => show win0_4.index t 1 * 128 + 1 * (y 1).val = (y 1).val; rw [hi.2.1]; omega
      | ⟨2, _⟩ => show win0_4.index t 2 * 1 + 1 * (y 2).val = 0; rw [hi.2.2]; omega)
  show _ = A4 m c (((cfg0.win 4).blk t).view.emb y)
  rw [ee]
  rfl

/-- Every index of the squared-norms array is in the block its core's last point writes. -/
theorem cover4 (i : S2x128x1.Idx) : ∃ t : Fin cfg0.N, (cfg0.win 4).flush t = true ∧ i ∈ ((cfg0.win 4).blk t).view.set := by
  have h0 : (i 0 : Nat) < 2 := (i 0).isLt
  have h1 : (i 1 : Nat) < 128 := (i 1).isLt
  have h2 : (i 2 : Nat) < 1 := (i 2).isLt
  have hN : cfg0.N = 64 := N_0
  let t : Fin cfg0.N := ⟨32 * (i 0).val + 31, by rw [hN]; omega⟩
  have hi := idx_out4 t
  have ht : t.val = 32 * (i 0).val + 31 := rfl
  refine ⟨t, (flush0_4 t).mpr (by rw [ht]; omega), ?_⟩
  show i ∈ ((View.whole main_v1_2).slice (win0_4.rect t)).set
  rw [View.set_slice_whole, Rect.mem_set_unit]
  intro a
  match a with
  | ⟨0, _⟩ => show win0_4.index t 0 * 1 ≤ (i 0 : Nat) ∧ (i 0 : Nat) < win0_4.index t 0 * 1 + 1
              rw [hi.1, ht]; omega
  | ⟨1, _⟩ => show win0_4.index t 1 * 128 ≤ (i 1 : Nat) ∧ (i 1 : Nat) < win0_4.index t 1 * 128 + 128
              rw [hi.2.1]; omega
  | ⟨2, _⟩ => show win0_4.index t 2 * 1 ≤ (i 2 : Nat) ∧ (i 2 : Nat) < win0_4.index t 2 * 1 + 1
              rw [hi.2.2]; omega

/-- So the squared-norms array ends holding the groups' totals. -/
theorem final4 (c : Dev nD) : (dats m 0 c).arrAt 4 cfg0.N = A4 m c :=
  (dats m 0 c).arrAt_eq_of_cover 4 (A4 m c) (flushed4 m c) cover4

/-! ## The result arrays through the arguments, in the kernel's order of visiting the rows -/

/-- The two arguments on core `c`, at their literal types. -/
abbrev xs (c : Dev nD) : SX.Idx → EReal := m ((c.tc : Thread nD τ).loc main_arg0)
abbrev ls (c : Dev nD) : SL.Idx → BitVec 32 := m ((c.tc : Thread nD τ).loc main_arg1)

/-- Point `32 p + i` of the grid. -/
def pt (p : Fin 2) (i : Fin 32) : Fin cfg0.N :=
  ⟨32 * p.val + i.val, by rw [show cfg0.N = 64 from N_0]; have := p.isLt; have := i.isLt; omega⟩

theorem A2_apply (c : Dev nD) (p : Fin 2) (cc : Fin 128) (d : Fin 256) :
    A2 m c (ix3 p cc d)
      = ∑ i : Fin 32, ∑ k : Fin 4096, oh cc.val (ls m c (ix1 (rowIx p i k)))
          * xs m c (ix2 (rowIx p i k) d) := by
  show ∑ s ∈ group cfg0.N p.val, part2 m c s cc d = _
  rw [sum_group (show cfg0.N = 64 from N_0) p]
  refine Finset.sum_congr rfl fun i _ => ?_
  show part2 m c (pt p i) cc d = _
  unfold part2
  refine Finset.sum_congr rfl fun k _ => ?_
  rw [lab_read m c (pt p i) k (rowIx p i k).isLt, emb_read m c (pt p i) k d (rowIx p i k).isLt]
  rfl

theorem A3_apply (c : Dev nD) (p : Fin 2) (cc : Fin 128) :
    A3 m c (ix3 p cc 0)
      = ∑ i : Fin 32, ∑ k : Fin 4096, oh cc.val (ls m c (ix1 (rowIx p i k))) := by
  show ∑ s ∈ group cfg0.N p.val, part3 m c s cc = _
  rw [sum_group (show cfg0.N = 64 from N_0) p]
  refine Finset.sum_congr rfl fun i _ => ?_
  show part3 m c (pt p i) cc = _
  unfold part3
  refine Finset.sum_congr rfl fun k _ => ?_
  rw [lab_read m c (pt p i) k (rowIx p i k).isLt]
  rfl

theorem A4_apply (c : Dev nD) (p : Fin 2) (cc : Fin 128) :
    A4 m c (ix3 p cc 0)
      = ∑ i : Fin 32, ∑ k : Fin 4096, oh cc.val (ls m c (ix1 (rowIx p i k)))
          * ∑ d : Fin 256, xs m c (ix2 (rowIx p i k) d)
              * xs m c (ix2 (rowIx p i k) d) := by
  show ∑ s ∈ group cfg0.N p.val, part4 m c s cc = _
  rw [sum_group (show cfg0.N = 64 from N_0) p]
  refine Finset.sum_congr rfl fun i _ => ?_
  show part4 m c (pt p i) cc = _
  unfold part4
  refine Finset.sum_congr rfl fun k _ => ?_
  rw [lab_read m c (pt p i) k (rowIx p i k).isLt]
  refine congrArg _ (Finset.sum_congr rfl fun d _ => ?_)
  rw [emb_read m c (pt p i) k d (rowIx p i k).isLt]
  rfl

end Cert.KernelIdeal.Arrays

end
-- ==== Proof.KTail.lean ====
/-
  The kernel program's host operations after the region, over the extended reals.

  The region leaves three arrays: the per-core coordinate sums `A2 : [2, 128, 256]`, the per-core counts
  `A3 : [2, 128, 1]` and the per-core sums of squared norms `A4 : [2, 128, 1]`. The host lines add the two cores'
  parts, divide the coordinate sums by the count taken as at least one, form for every class row the squared norms
  less the count times the centroid's squared norm, not below zero, keep the first 100 class rows, divide each by
  the count taken as at least one where the count is positive (zero elsewhere), and return the sum of these over
  the number of classes whose count is positive.
-/
import proofs.«416044_j549755813958_3_alg».proof.Proof.Gen.KernelIdeal.Frame
import proofs.«416044_j549755813958_3_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Tail

open Cert.KernelIdeal Cert.KernelIdeal.Gen
open Idealize.ShloMosaic Idealize.ShloMosaic.TcCoe Idealize.SL.Sem Idealize.ShloMosaic.ValueIdx Cert.ClassSums

/-! ## The host lines as functions of the three arrays -/

/-- The coordinate sums, the two cores' parts added: a sum over axis 0 from zero. -/
def k2 (A2 : Vec Ideal S2x128x256 .f32) : Vec Ideal S128x256 .f32 :=
  Host.reduceAdd A2 (constant (F := Ideal) S_ .f32 0x00000000#32) reducesTo_S2x128x256_S128x256_d0 h_S_

/-- A per-core column `[2, 128, 1]` added over the cores and read as a vector of 128 class rows. -/
def k4 (A : Vec Ideal S2x128x1 .f32) : Vec Ideal S128 .f32 :=
  shapeCast S128 (Host.reduceAdd A (constant (F := Ideal) S_ .f32 0x00000000#32) reducesTo_S2x128x1_S128x1_d0 h_S_) shapeCasts_S128x1_S128

/-- The centroids: the coordinate sums over the count taken as at least one. -/
def k11 (A2 : Vec Ideal S2x128x256 .f32) (A3 : Vec Ideal S2x128x1 .f32) : Vec Ideal S128x256 .f32 :=
  Host.divf (k2 A2)
    (broadcastInDim S128x256 ![0, 1] bcast_S128x1_S128x256_0_1
      (broadcastInDim S128x1 ![0] bcast_S128_S128x1_0
        (maximumf (k4 A3) (broadcastInDim S128 ![] bcast_S_S128 (constant (F := Ideal) S_ .f32 0x3F800000#32)))))

/-- The centroids' squared norms. -/
def k13 (A2 : Vec Ideal S2x128x256 .f32) (A3 : Vec Ideal S2x128x1 .f32) : Vec Ideal S128 .f32 :=
  Host.reduceAdd (mulf (k11 A2 A3) (k11 A2 A3)) (constant (F := Ideal) S_ .f32 0x00000000#32) reducesTo_S128x256_S128_d1 h_S_

/-- The squared norms less the count times the centroid's squared norm, not below zero. -/
def k17 (A2 : Vec Ideal S2x128x256 .f32) (A3 A4 : Vec Ideal S2x128x1 .f32) : Vec Ideal S128 .f32 :=
  maximumf (subf (k4 A4) (mulf (k4 A3) (k13 A2 A3)))
    (broadcastInDim S128 ![] bcast_S_S128 (constant (F := Ideal) S_ .f32 0x00000000#32))

/-- The counts of the first 100 classes. -/
def kcnt (A3 : Vec Ideal S2x128x1 .f32) : Vec Ideal S100 .f32 :=
  extractStridedSlice S100 ![0] (k4 A3) slices_S128_S100_0

/-- The per-class loss: for a class with a positive count the clamped difference over the count taken as at least
    one, zero for the others. -/
def kloss (A2 : Vec Ideal S2x128x256 .f32) (A3 A4 : Vec Ideal S2x128x1 .f32) : Vec Ideal S100 .f32 :=
  select
    (cmpf (F := Ideal) .ogt (kcnt A3) (broadcastInDim S100 ![] bcast_S_S100 (constant (F := Ideal) S_ .f32 0x00000000#32)))
    (Host.divf (extractStridedSlice S100 ![0] (k17 A2 A3 A4) slices_S128_S100_0)
      (maximumf (kcnt A3) (broadcastInDim S100 ![] bcast_S_S100 (constant (F := Ideal) S_ .f32 0x3F800000#32))))
    (broadcastInDim S100 ![] bcast_S_S100 (id (constant (F := Ideal) S_ .f32 0x00000000#32)))

/-- The program's result: the sum of the per-class losses over the number of classes with a positive count. -/
def KT (A2 : Vec Ideal S2x128x256 .f32) (A3 A4 : Vec Ideal S2x128x1 .f32) : Vec Ideal S_ .f32 :=
  Host.divf (Host.reduceAdd (kloss A2 A3 A4) (constant (F := Ideal) S_ .f32 0x00000000#32) reducesTo_S100_S_d0 h_S_)
    (sitofp (F := Ideal) .f32
      (Host.reduce IntOp.addi
        (extui 32 (cmpf (F := Ideal) .ogt (kcnt A3) (broadcastInDim S100 ![] bcast_S_S100 (constant (F := Ideal) S_ .f32 0x00000000#32))) natLt_1_32)
        (constantI S_ 32 0#32) reducesTo_S100_S_d0 h_S_))

theorem KT_eq (A2 : Vec Ideal S2x128x256 .f32) (A3 A4 : Vec Ideal S2x128x1 .f32) :
    KT A2 A3 A4
      = Host.divf (Host.reduceAdd (kloss A2 A3 A4) (constant (F := Ideal) S_ .f32 0x00000000#32) reducesTo_S100_S_d0 h_S_)
          (sitofp (F := Ideal) .f32
            (Host.reduce IntOp.addi
              (extui 32 (cmpf (F := Ideal) .ogt (kcnt A3) (broadcastInDim S100 ![] bcast_S_S100 (constant (F := Ideal) S_ .f32 0x00000000#32))) natLt_1_32)
              (constantI S_ 32 0#32) reducesTo_S100_S_d0 h_S_)) := rfl

/-! ## The run -/

open Idealize.ShloMosaic.StableHlo in
set_option maxRecDepth 8192 in
set_option maxHeartbeats 2000000 in
/-- The host lines after the region, run from any buffer contents `W`, leave the result buffer at the composed
    function of what `W` holds at the region's three results. -/
theorem after_main_v32 (W : Valuation τ sig (Elt Ideal)) :
    StableHlo.after (List.flatten [hostOps1, hostOps1_1, hostOps1_2]) W (Proc.devRef .tc main_v32)
      = KT (W (Proc.devRef .tc main_v1_0)) (W (Proc.devRef .tc main_v1_1)) (W (Proc.devRef .tc main_v1_2)) := by
  simp only [hostOps1, hostOps1_1, hostOps1_2, List.flatten_cons, List.flatten_nil, List.append_nil, List.cons_append,
    List.nil_append]
  after_results_simp
  generalize W (Proc.devRef .tc main_v1_0) = A2
  generalize W (Proc.devRef .tc main_v1_1) = A3
  generalize W (Proc.devRef .tc main_v1_2) = A4
  rfl

/-- The result buffer after the lines that follow the region: the composed function of the three arrays the region left. -/
theorem tail_main_v32 (m : (ℓ : Loc nD τ sig) → Buf (Elt Ideal) ℓ) (c : Dev nD) :
    Pipeline.afterTail₀ cfgs (dats m) 0 (V0 m) [hostOps1, hostOps1_1, hostOps1_2] c main_v32
      = KT ((dats m 0 c).arrAt 2 cfg0.N) ((dats m 0 c).arrAt 3 cfg0.N) ((dats m 0 c).arrAt 4 cfg0.N) := by
  unfold Pipeline.afterTail₀
  refine (after_main_v32 _).trans ?_
  have e2 : Pipeline.withArrays (cfgs 0).spec c (V0 m c) (fun w => (dats m 0 c).arrAt w (cfgs 0).N) (Proc.devRef .tc main_v1_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v1_1)
      = (dats m 0 c).arrAt 3 cfg0.N := Pipeline.withArrays_arr spec0 launch0.win.arr_inj c _ _ 3
  have e4 : Pipeline.withArrays (cfgs 0).spec c (V0 m c) (fun w => (dats m 0 c).arrAt w (cfgs 0).N) (Proc.devRef .tc main_v1_2)
      = (dats m 0 c).arrAt 4 cfg0.N := Pipeline.withArrays_arr spec0 launch0.win.arr_inj c _ _ 4
  rw [e2, e3, e4]

/-- At the compiled mesh, for any values, from any memory with zero counters: every weakly fair execution of the
    program terminates with the result at the composed function of the three arrays the region leaves, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v32)
          = KT ((dats m 0 c).arrAt 2 cfg0.N) ((dats m 0 c).arrAt 3 cfg0.N) ((dats m 0 c).arrAt 4 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v32 (Pipeline.mem_restRefs_of main_v32 (by decide) (by decide))).trans (tail_main_v32 m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

/-! ## The host lines read at an index -/

/-- The float word of one is the extended real one. -/
theorem ofBits_one_f32 : Ideal.ofBits .f32 0x3F800000#32 = 1 := by
  simp [Ideal.ofBits, Ideal.ieee, -EReal.coe_mul]; norm_num

/-- A per-core column added over the two cores, read at class row `c`. -/
theorem k4_apply (A : Vec Ideal S2x128x1 .f32) (c : Fin 128) : k4 A (ix1 c) = ∑ p : Fin 2, A (ix3 p c 0) := by
  unfold k4
  refine (shapeCast_apply _ shapeCasts_S128x1_S128 (ix1 c) (ix2 c 0) ?_).trans ?_
  · rw [Shape.rowMajor_val_two, Shape.rowMajor_val_one]
    show c.val * 1 + 0 = c.val
    omega
  · simp only [Host.reduceAdd, Ideal.hostReduceAdd_def]
    rw [Ideal.hostReduceAdd_single reducesTo_S2x128x1_S128x1_d0 (by decide)]
    show Ideal.ofBits .f32 0x00000000#32 + _ = _
    rw [Ideal.ofBits_zero_f32, zero_add]
    refine Finset.sum_congr rfl fun p _ => ?_
    exact congrArg A (funext fun a => Fin.ext (by match a with | ⟨0, _⟩ => rfl | ⟨1, _⟩ => rfl | ⟨2, _⟩ => rfl))

/-- The coordinate sums added over the two cores, read at class row `c`, coordinate `d`. -/
theorem k2_apply (A2 : Vec Ideal S2x128x256 .f32) (c : Fin 128) (d : Fin 256) :
    k2 A2 (ix2 c d) = ∑ p : Fin 2, A2 (ix3 p c d) := by
  unfold k2
  simp only [Host.reduceAdd, Ideal.hostReduceAdd_def]
  rw [Ideal.hostReduceAdd_single reducesTo_S2x128x256_S128x256_d0 (by decide)]
  show Ideal.ofBits .f32 0x00000000#32 + _ = _
  rw [Ideal.ofBits_zero_f32, zero_add]
  refine Finset.sum_congr rfl fun p _ => ?_
  exact congrArg A2 (funext fun a => Fin.ext (by match a with | ⟨0, _⟩ => rfl | ⟨1, _⟩ => rfl | ⟨2, _⟩ => rfl))

/-- A centroid coordinate: the coordinate sum over the count taken as at least one. -/
theorem k11_apply (A2 : Vec Ideal S2x128x256 .f32) (A3 : Vec Ideal S2x128x1 .f32) (c : Fin 128) (d : Fin 256) :
    k11 A2 A3 (ix2 c d)
      = Ideal.div (∑ p : Fin 2, A2 (ix3 p c d)) (max (∑ p : Fin 2, A3 (ix3 p c 0)) 1) := by
  unfold k11
  show Ideal.div (k2 A2 (ix2 c d)) (broadcastInDim (s := S128x1) S128x256 ![0, 1] bcast_S128x1_S128x256_0_1 _ (ix2 c d)) = _
  rw [k2_apply]
  refine congrArg (Ideal.div _) ?_
  refine (broadcastInDim_apply _ bcast_S128x1_S128x256_0_1 _ (ix2 c d) (ix2 c 0) (fun a => match a with
    | ⟨0, _⟩ => by show c.val = if (128 : Nat) = 1 then 0 else c.val; rw [if_neg (by decide)]
    | ⟨1, _⟩ => by show 0 = if (1 : Nat) = 1 then 0 else d.val; rw [if_pos rfl])).trans ?_
  refine (broadcastInDim_apply _ bcast_S128_S128x1_0 _ (ix2 c 0) (ix1 c) (fun a => match a with
    | ⟨0, _⟩ => by show c.val = if (128 : Nat) = 1 then 0 else c.val; rw [if_neg (by decide)])).trans ?_
  show max (k4 A3 (ix1 c)) (broadcastInDim S128 ![] bcast_S_S128 (constant (F := Ideal) S_ .f32 0x3F800000#32) (ix1 c)) = _
  rw [k4_apply]
  refine congrArg (max _) ?_
  refine (broadcastInDim_apply _ bcast_S_S128 _ (ix1 c) ix0 (fun a => a.elim0)).trans ?_
  exact ofBits_one_f32

/-- The squared norm of a centroid. -/
theorem k13_apply (A2 : Vec Ideal S2x128x256 .f32) (A3 : Vec Ideal S2x128x1 .f32) (c : Fin 128) :
    k13 A2 A3 (ix1 c) = ∑ d : Fin 256, k11 A2 A3 (ix2 c d) * k11 A2 A3 (ix2 c d) := by
  unfold k13
  generalize k11 A2 A3 = y
  simp only [Host.reduceAdd, Ideal.hostReduceAdd_def]
  rw [Ideal.hostReduceAdd_single reducesTo_S128x256_S128_d1 (by decide)]
  show Ideal.ofBits .f32 0x00000000#32 + _ = _
  rw [Ideal.ofBits_zero_f32, zero_add]
  refine Finset.sum_congr rfl fun d _ => ?_
  exact congrArg (fun i => y i * y i) (funext fun a => Fin.ext (by match a with | ⟨0, _⟩ => rfl | ⟨1, _⟩ => rfl))

/-- The clamped difference at class row `c`: the squared norms less the count times the centroid's squared norm, not
    below zero. -/
theorem k17_apply (A2 : Vec Ideal S2x128x256 .f32) (A3 A4 : Vec Ideal S2x128x1 .f32) (c : Fin 128) :
    k17 A2 A3 A4 (ix1 c) = max (k4 A4 (ix1 c) - k4 A3 (ix1 c) * k13 A2 A3 (ix1 c)) 0 := by
  unfold k17
  show max (k4 A4 (ix1 c) - k4 A3 (ix1 c) * k13 A2 A3 (ix1 c))
      (broadcastInDim S128 ![] bcast_S_S128 (constant (F := Ideal) S_ .f32 0x00000000#32) (ix1 c)) = _
  refine congrArg (max _) ?_
  refine (broadcastInDim_apply _ bcast_S_S128 _ (ix1 c) ix0 (fun a => a.elim0)).trans ?_
  exact Ideal.ofBits_zero_f32

/-- A slice of the first 100 class rows read at class `c` is the vector at row `c`. -/
theorem slice_apply (v : Vec Ideal S128 .f32) (c : Fin 100) :
    extractStridedSlice S100 ![0] v slices_S128_S100_0 (ix1 c) = v (ix1 (⟨c.val, by omega⟩ : Fin 128)) :=
  extractStridedSlice_apply ![0] v slices_S128_S100_0 (ix1 c) (ix1 (⟨c.val, by omega⟩ : Fin 128)) (fun a => match a with
    | ⟨0, _⟩ => by show c.val = 0 + c.val; omega)

/-- A scalar constant broadcast over the 100 classes, read at any class. -/
theorem bcast100_apply (b : BitVec 32) (i : S100.Idx) :
    broadcastInDim S100 ![] bcast_S_S100 (constant (F := Ideal) S_ .f32 b) i = Ideal.ofBits .f32 b :=
  broadcastInDim_apply _ bcast_S_S100 _ i ix0 (fun a => a.elim0)

theorem kcnt_apply (A3 : Vec Ideal S2x128x1 .f32) (c : Fin 100) :
    kcnt A3 (ix1 c) = ∑ p : Fin 2, A3 (ix3 p (⟨c.val, by omega⟩ : Fin 128) 0) := by
  unfold kcnt
  rw [slice_apply, k4_apply]

theorem kloss_apply (A2 : Vec Ideal S2x128x256 .f32) (A3 A4 : Vec Ideal S2x128x1 .f32) (c : Fin 100) :
    kloss A2 A3 A4 (ix1 c)
      = Scalar.select (FloatOps.cmpf (F := Ideal) (φ := .f32) .ogt (kcnt A3 (ix1 c)) 0)
          (Ideal.div
            (max ((∑ p : Fin 2, A4 (ix3 p (⟨c.val, by omega⟩ : Fin 128) 0))
                - (∑ p : Fin 2, A3 (ix3 p (⟨c.val, by omega⟩ : Fin 128) 0))
                  * ∑ d : Fin 256,
                      (Ideal.div (∑ p : Fin 2, A2 (ix3 p (⟨c.val, by omega⟩ : Fin 128) d)) (max (∑ p : Fin 2, A3 (ix3 p (⟨c.val, by omega⟩ : Fin 128) 0)) 1))
                      * (Ideal.div (∑ p : Fin 2, A2 (ix3 p (⟨c.val, by omega⟩ : Fin 128) d)) (max (∑ p : Fin 2, A3 (ix3 p (⟨c.val, by omega⟩ : Fin 128) 0)) 1))) 0)
            (max (kcnt A3 (ix1 c)) 1))
          0 := by
  unfold kloss
  show Scalar.select
      (FloatOps.cmpf (F := Ideal) (φ := .f32) .ogt (kcnt A3 (ix1 c))
        (broadcastInDim S100 ![] bcast_S_S100 (constant (F := Ideal) S_ .f32 0x00000000#32) (ix1 c)))
      (Ideal.div (extractStridedSlice S100 ![0] (k17 A2 A3 A4) slices_S128_S100_0 (ix1 c))
        (max (kcnt A3 (ix1 c)) (broadcastInDim S100 ![] bcast_S_S100 (constant (F := Ideal) S_ .f32 0x3F800000#32) (ix1 c))))
      (broadcastInDim S100 ![] bcast_S_S100 (constant (F := Ideal) S_ .f32 0x00000000#32) (ix1 c)) = _
  rw [bcast100_apply, bcast100_apply, Ideal.ofBits_zero_f32, ofBits_one_f32, slice_apply, k17_apply, k4_apply, k4_apply, k13_apply]
  simp only [k11_apply]

end Cert.KernelIdeal.Tail

end
-- ==== Proof.RefStages.lean ====
/-
  The reference's three segment sums and its gather, read at an index over the extended reals.

  A `segment_sum` prints as a scatter with an add body: the result at class `c` is zero plus the sum of the updates
  whose label, read signed and not clamped, is `c`; an update whose label is outside [0, 100) lands nowhere. So each
  segment sum is the sum over all rows of the class indicator times the row's term. The gather `centroids[labels]`
  reads, for a row of class `c` in [0, 100), the centroid row `c` (a negative label is first shifted by 100, a label is
  then clamped: neither touches a label already in range); for other rows what it reads is multiplied by a zero indicator.
-/
import proofs.«416044_j549755813958_3_alg».proof.Proof.RefReadP
import proofs.«416044_j549755813958_3_alg».proof.Proof.Spec
import Idealize.ShloMosaic.Lib.ValueIdx
import Idealize.ShloMosaic.Lib.ValueIdxRank1
import Idealize.ShloMosaic.Lib.IdealHost
import Idealize.ShloMosaic.PureOps.Ideal.Laws

noncomputable section

namespace Cert.ReferenceIdeal.Stages

open Idealize.ShloMosaic Idealize.ShloMosaic.ValueIdx Cert.ReferenceIdeal Cert.ReferenceIdeal.ReadP Cert.ClassSums

variable (x : (⟨S262144x256, .f32⟩ : BufTy).Contents (Elt Ideal)) (l : (⟨S262144, .i32⟩ : BufTy).Contents (Elt Ideal))

/-- An update lands at `i` exactly when, on every axis, its signed start plus its window coordinate is `i`'s coordinate. -/
theorem resultIdx_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e0 : (d.start j idx a + (d.window j a : Int)).toNat = (i a).val :=
        congrArg (fun f : s.Idx => (f a).val) (Option.some.inj e)
      have := (h a).1
      omega
    · intro e
      congr 1
      funext a
      exact Fin.ext (by show (d.start j idx a + (d.window j a : Int)).toNat = _; have := e a; omega)
  · rename_i h
    constructor
    · intro e; exact absurd e (by simp)
    · intro e
      exfalso; apply h; intro a
      have := e a; have := (i a).isLt
      omega

/-- The rank-1 segment sum: the update at row `j` lands at class `i` exactly when the row's label word, read signed, is `i`. -/
theorem resultIdx1 {w : Nat} (idx : IVec S262144x1 w) (j : S262144.Idx) (i : S100.Idx) :
    scatter_S100_S262144x1_S262144_n_0_0_1.resultIdx? j idx = some i ↔ (idx (ix2 (j 0) 0)).toInt = ((i 0).val : Int) := by
  have hstart : scatter_S100_S262144x1_S262144_n_0_0_1.start j idx 0 = (idx (ix2 (j 0) 0)).toInt := by
    unfold ScatterDims.start
    rw [dif_pos (show (0 : Fin 1) ∈ scatter_S100_S262144x1_S262144_n_0_0_1.scatterDimsToOperandDims from List.mem_singleton.mpr rfl)]
    congr 2
    funext b; refine Fin.ext ?_
    match b with
    | ⟨0, _⟩ => rfl
    | ⟨1, _⟩ => rfl
  have hwin : scatter_S100_S262144x1_S262144_n_0_0_1.window j 0 = 0 := rfl
  rw [resultIdx_eq_some_iff]
  constructor
  · intro h; have := h 0; rw [hstart, hwin] at this; simpa using this
  · intro h a
    obtain rfl : a = 0 := Subsingleton.elim _ _
    rw [hstart, hwin]; simpa using h

/-- The rank-2 segment sum: the update at `(row, coordinate)` lands at `(class, coordinate')` exactly when the row's label
    word, read signed, is the class and the coordinates agree. -/
theorem resultIdx2 {w : Nat} (idx : IVec S262144x1 w) (j : S262144x256.Idx) (i : S100x256.Idx) :
    scatter_S100x256_S262144x1_S262144x256_1_0_0_1.resultIdx? j idx = some i
      ↔ (idx (ix2 (j 0) 0)).toInt = ((i 0).val : Int) ∧ j 1 = i 1 := by
  have hstart0 : scatter_S100x256_S262144x1_S262144x256_1_0_0_1.start j idx 0 = (idx (ix2 (j 0) 0)).toInt := by
    unfold ScatterDims.start
    rw [dif_pos (show (0 : Fin 2) ∈ scatter_S100x256_S262144x1_S262144x256_1_0_0_1.scatterDimsToOperandDims from List.mem_singleton.mpr rfl)]
    congr 2
    funext b; refine Fin.ext ?_
    match b with
    | ⟨0, _⟩ => rfl
    | ⟨1, _⟩ => rfl
  have hstart1 : scatter_S100x256_S262144x1_S262144x256_1_0_0_1.start j idx 1 = 0 := by
    unfold ScatterDims.start
    rw [dif_neg (show (1 : Fin 2) ∉ scatter_S100x256_S262144x1_S262144x256_1_0_0_1.scatterDimsToOperandDims by decide)]
  have hwin0 : scatter_S100x256_S262144x1_S262144x256_1_0_0_1.window j 0 = 0 := rfl
  have hwin1 : scatter_S100x256_S262144x1_S262144x256_1_0_0_1.window j 1 = (j 1).val := rfl
  rw [resultIdx_eq_some_iff]
  constructor
  · intro h
    have h0 := h 0; have h1 := h 1
    rw [hstart0, hwin0] at h0; rw [hstart1, hwin1] at h1
    refine ⟨by simpa using h0, Fin.ext ?_⟩
    omega
  · rintro ⟨h0, h1⟩ a
    match a with
    | ⟨0, _⟩ => show scatter_S100x256_S262144x1_S262144x256_1_0_0_1.start j idx 0 + _ = _; rw [hstart0]; show _ + ((scatter_S100x256_S262144x1_S262144x256_1_0_0_1.window j 0 : Nat) : Int) = _; rw [hwin0]; simpa using h0
    | ⟨1, _⟩ => show scatter_S100x256_S262144x1_S262144x256_1_0_0_1.start j idx 1 + _ = _; rw [hstart1]; show _ + ((scatter_S100x256_S262144x1_S262144x256_1_0_0_1.window j 1 : Nat) : Int) = _; rw [hwin1, h1]; simp

/-- The signed reading of a label word against a class below 100, as the indicator. -/
theorem ite_toInt_eq_oh (c : Fin 100) (w : BitVec 32) (u : EReal) :
    (if w.toInt = (c.val : Int) then u else 0) = oh c.val w * u := by
  have hc : c.val < 2 ^ 31 := by have := c.isLt; omega
  unfold oh
  by_cases h : BitVec.ofNat 32 c.val = w
  · rw [if_pos ((toInt_eq_iff c.val hc w).mpr h), if_pos h, one_mul]
  · rw [if_neg (fun e => h ((toInt_eq_iff c.val hc w).mp e)), if_neg h, zero_mul]

/-- A rank-1 segment sum at class `c`: the operand's element plus the sum over all rows of the indicator times the update. -/
theorem seg1_apply (x0 : S100.Idx → EReal) (lb : IVec S262144x1 32) (upd : S262144.Idx → EReal)
    (hlb : ∀ r : Fin 262144, lb (ix2 r 0) = l (ix1 r)) (c : Fin 100) :
    Ideal.hostScatterAdd scatter_S100_S262144x1_S262144_n_0_0_1 x0 lb upd (ix1 c)
      = x0 (ix1 c) + ∑ r : Fin 262144, oh c.val (l (ix1 r)) * upd (ix1 r) := by
  unfold Ideal.hostScatterAdd
  refine congrArg (x0 (ix1 c) + ·) ?_
  rw [Finset.sum_filter]
  refine (Fintype.sum_equiv idxEquiv1.symm _ _ fun r => ?_).symm
  show _ = if scatter_S100_S262144x1_S262144_n_0_0_1.resultIdx? (ix1 r) lb = some (ix1 c) then upd (ix1 r) else 0
  rw [← ite_toInt_eq_oh, ← hlb]
  exact (if_congr (resultIdx1 lb (ix1 r) (ix1 c)) rfl rfl).symm

/-- A rank-2 segment sum at class `c`, coordinate `d`: the operand's element plus the sum over all rows of the indicator
    times the update's coordinate `d`. -/
theorem seg2_apply (x0 : S100x256.Idx → EReal) (lb : IVec S262144x1 32) (upd : S262144x256.Idx → EReal)
    (hlb : ∀ r : Fin 262144, lb (ix2 r 0) = l (ix1 r)) (c : Fin 100) (d : Fin 256) :
    Ideal.hostScatterAdd scatter_S100x256_S262144x1_S262144x256_1_0_0_1 x0 lb upd (ix2 c d)
      = x0 (ix2 c d) + ∑ r : Fin 262144, oh c.val (l (ix1 r)) * upd (ix2 r d) := by
  unfold Ideal.hostScatterAdd
  refine congrArg (x0 (ix2 c d) + ·) ?_
  rw [Finset.sum_filter, sum_idx2]
  refine Finset.sum_congr rfl fun r _ => ?_
  rw [← ite_toInt_eq_oh, ← hlb]
  by_cases hP : (lb (ix2 r 0)).toInt = (c.val : Int)
  · rw [if_pos hP]
    rw [Finset.sum_eq_single d]
    · exact if_pos ((resultIdx2 lb (ix2 r d) (ix2 c d)).mpr ⟨hP, rfl⟩)
    · intro k _ hk
      exact if_neg fun e => hk ((resultIdx2 lb (ix2 r k) (ix2 c d)).mp e).2
    · intro h; exact absurd (Finset.mem_univ d) h
  · rw [if_neg hP]
    exact Finset.sum_eq_zero fun k _ => if_neg fun e => hP ((resultIdx2 lb (ix2 r k) (ix2 c d)).mp e).1

/-- The gather `table[labels]` at row `r`, coordinate `k`: the table's coordinate `k` on the row the index word of `r`
    names, read signed and clamped into the table's 100 rows. -/
theorem gather_apply {α : Type} {w : Nat} (t : S100x256.Idx → α) (idx : IVec S262144x1 w) (r : Fin 262144) (k : Fin 256) :
    Host.gather gather_S100x256_S262144x1_S262144x256_1_0_n_n_0_1_1256 t idx (ix2 r k)
      = t (ix2 (⟨min (idx (ix2 r 0)).toInt.toNat 99, by omega⟩ : Fin 100) k) := by
  unfold Host.gather
  refine congrArg t (funext fun a => Fin.ext ?_)
  match a with
  | ⟨0, _⟩ =>
    show gather_S100x256_S262144x1_S262144x256_1_0_n_n_0_1_1256.start (ix2 r k) idx 0
        + gather_S100x256_S262144x1_S262144x256_1_0_n_n_0_1_1256.batchCoord (ix2 r k) 0
        + gather_S100x256_S262144x1_S262144x256_1_0_n_n_0_1_1256.offCoord (ix2 r k) 0 = min (idx (ix2 r 0)).toInt.toNat 99
    rw [GatherDims.batchCoord_eq_zero _ _ _ (show (0 : Fin 2) ∉ ([] : List (Fin 2)) from List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x256_S262144x1_S262144x256_1_0_n_n_0_1_1256.startIndexMap from List.mem_singleton.mpr rfl)]
    have hsi : gather_S100x256_S262144x1_S262144x256_1_0_n_n_0_1_1256.siIdx (ix2 r k)
        ⟨List.idxOf (0 : Fin 2) gather_S100x256_S262144x1_S262144x256_1_0_n_n_0_1_1256.startIndexMap,
          List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show gather_S100x256_S262144x1_S262144x256_1_0_n_n_0_1_1256.start (ix2 r k) idx 1
        + gather_S100x256_S262144x1_S262144x256_1_0_n_n_0_1_1256.batchCoord (ix2 r k) 1
        + gather_S100x256_S262144x1_S262144x256_1_0_n_n_0_1_1256.offCoord (ix2 r k) 1 = k.val
    rw [GatherDims.batchCoord_eq_zero _ _ _ (show (1 : Fin 2) ∉ ([] : List (Fin 2)) from List.not_mem_nil)]
    unfold GatherDims.start
    rw [dif_neg (show (1 : Fin 2) ∉ gather_S100x256_S262144x1_S262144x256_1_0_n_n_0_1_1256.startIndexMap by decide)]
    simp only [Nat.add_zero, Nat.zero_add]
    rfl

/-- The labels laid out as a column: row `r` of the column is label `r`. -/
theorem labels_col (r : Fin 262144) : val_main_v2 (F := Ideal) l (ix2 r 0) = l (ix1 r) := by
  rw [val_main_v2_apply]
  exact congrArg l (funext fun a => by match a with | ⟨0, _⟩ => rfl)

/-- `counts = segment_sum(ones, labels)` at class `c`. -/
theorem counts_apply (c : Fin 100) : val_main_v3 (F := Ideal) l (ix1 c) = cntN l c.val := by
  unfold val_main_v3 Host.scatterAdd
  rw [Ideal.hostScatterAdd_def, seg1_apply l _ _ _ (labels_col l) c]
  rw [val_main_v1_apply, val_main_cst_0_apply, Ideal.ofBits_def, Ideal.ofBits_zero_f32, zero_add]
  unfold cntN
  refine Finset.sum_congr rfl fun r _ => ?_
  rw [val_main_v0_apply, val_main_cst_apply, Ideal.ofBits_def, Ideal.ofBits_one_f32, mul_one]

/-- `sums = segment_sum(embeddings, labels)` at class `c`, coordinate `d`. -/
theorem sums_apply (c : Fin 100) (d : Fin 256) : val_main_v6 (F := Ideal) x l (ix2 c d) = sumN x l c.val d := by
  unfold val_main_v6 Host.scatterAdd
  rw [Ideal.hostScatterAdd_def, seg2_apply l _ (val_main_v5 (F := Ideal) l) _ (labels_col l) c d]
  rw [val_main_v4_apply, val_main_cst_1_apply, Ideal.ofBits_def, Ideal.ofBits_zero_f32, zero_add]
  rfl

/-- `centroids = sums / max(counts, 1)` at class `c`, coordinate `d`. -/
theorem centroids_apply (c : Fin 100) (d : Fin 256) : val_main_v11 (F := Ideal) x l (ix2 c d) = centN x l c.val d := by
  have hi : idx_main_v9 (idx_main_v10 (ix2 c d : S100x256.Idx)) = ix1 c := by
    funext a; match a with | ⟨0, _⟩ => rfl
  rw [val_main_v11_apply, Ideal.hostDivf_def, sums_apply, val_main_v10_apply, val_main_v9_apply, val_main_v8_apply,
    Ideal.maximumf_def, hi, counts_apply, val_main_v7_apply, val_main_cst_2_apply, Ideal.ofBits_def, Ideal.ofBits_one_f32]
  rfl

/-- On a row whose label word is class `c`'s, the gather reads centroid row `c`: the word is not negative, so the shift
    by 100 is not taken, and it is below 100, so the clamp does not move it. -/
theorem gathered_row (c : Fin 100) (r : Fin 262144) (k : Fin 256) (hw : BitVec.ofNat 32 c.val = l (ix1 r)) :
    val_main_v18 (F := Ideal) x l (ix2 r k) = centN x l c.val k := by
  have hc : c.val < 2 ^ 31 := by have := c.isLt; omega
  have htoInt : (BitVec.ofNat 32 c.val).toInt = (c.val : Int) := (toInt_eq_iff c.val hc _).mpr rfl
  have hneg : IntOp.cmpi .slt (BitVec.ofNat 32 c.val) 0#32 = 0#1 := by
    unfold IntOp.cmpi
    show BitVec.ofBool ((BitVec.ofNat 32 c.val).slt 0#32) = 0#1
    have : (BitVec.ofNat 32 c.val).slt 0#32 = false := by
      rw [BitVec.slt, htoInt]
      simp
    rw [this]; rfl
  have hidx : val_main_v17 (F := Ideal) l (ix2 r 0) = BitVec.ofNat 32 c.val := by
    have hi : idx_main_v17 (ix2 r 0 : S262144x1.Idx) = ix1 r := by
      funext a; match a with | ⟨0, _⟩ => rfl
    rw [val_main_v17_apply, val_main_v16_apply, val_main_v13_apply, val_main_v12_apply, val_main_c_apply, hi, ← hw, hneg,
      select_zero]
  unfold val_main_v18
  rw [gather_apply, ← centroids_apply x l c k]
  refine congrArg (val_main_v11 (F := Ideal) x l) (congrArg (fun a : Fin 100 => (ix2 a k : S100x256.Idx)) (Fin.ext ?_))
  show min (val_main_v17 (F := Ideal) l (ix2 r 0)).toInt.toNat 99 = c.val
  rw [hidx, htoInt]
  have := c.isLt
  omega

/-- `sq_per_class = segment_sum(sum((embeddings - centroids[labels])², axis 1), labels)` at class `c`. -/
theorem dist_apply (c : Fin 100) : val_main_v24 (F := Ideal) x l (ix1 c) = distN x l c.val := by
  unfold val_main_v24 Host.scatterAdd
  rw [Ideal.hostScatterAdd_def, seg1_apply l _ (val_main_v23 (F := Ideal) l) _ (labels_col l) c]
  rw [val_main_v22_apply, val_main_cst_5_apply, Ideal.ofBits_def, Ideal.ofBits_zero_f32, zero_add]
  unfold distN
  refine Finset.sum_congr rfl fun r _ => ?_
  rcases oh_eq_zero_or_one c.val (l (ix1 r)) with h0 | h1
  · rw [h0, zero_mul, zero_mul]
  · have hw : BitVec.ofNat 32 c.val = l (ix1 r) := by
      unfold oh at h1
      by_contra hne
      rw [if_neg hne] at h1
      exact zero_ne_one h1
    rw [h1, one_mul, one_mul, val_main_v21_apply, val_main_cst_4_apply, Ideal.ofBits_def, Ideal.ofBits_zero_f32, zero_add]
    refine Finset.sum_congr rfl fun k _ => ?_
    have hi : idx_main_v21 (ix1 r : S262144.Idx) k = ix2 r k := by
      funext a; match a with | ⟨0, _⟩ => rfl | ⟨1, _⟩ => rfl
    rw [val_main_v20_apply, Ideal.mulf_def, val_main_v19_apply, Ideal.subf_def, hi, gathered_row x l c r k hw]

end Cert.ReferenceIdeal.Stages

end
-- ==== Proof.Variance.lean ====
/-
  The variance identity, over the extended reals, for embeddings that are real numbers.

  For a class with at least one row, write n for its count, S_d for its coordinate sums, μ_d = S_d / n for its centroid
  and Q for the sum of its rows' squared norms. Expanding the square,
      Σ_{rows of the class} Σ_d (x_d − μ_d)² = Q − 2 Σ_d μ_d S_d + n Σ_d μ_d² = Q − n Σ_d μ_d²,
  since S_d = n μ_d. The left side is a sum of squares, so the right side is not negative and taking its maximum with
  zero changes nothing. Every quantity is a real number because every entry is; the indicator is zero or one, so the
  count is a natural number, and "at least one row" makes max(n, 1) = n.
-/
import proofs.«416044_j549755813958_3_alg».proof.Proof.Spec
import Mathlib.Algebra.BigOperators.Field
import Mathlib.Algebra.Order.BigOperators.Ring.Finset
import Mathlib.Data.EReal.Operations
import Mathlib.Tactic.FieldSimp
import Mathlib.Tactic.Ring
import Mathlib.Tactic.Linarith

noncomputable section

namespace Cert.ClassSums

open Idealize.ShloMosaic Idealize.ShloMosaic.ValueIdx

/-- The coercion of the reals into the extended reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One coordinate of the variance identity, for any real weights of nonzero total: with μ = (Σ w y) / Σ w,
Σ w (y − μ)² = Σ w y² − (Σ w) μ². -/
private theorem var_coord {R : Type*} [Fintype R] (w y : R → ℝ) (hn : ∑ r, w r ≠ 0) :
    ∑ r, w r * ((y r - (∑ s, w s * y s) / ∑ s, w s) * (y r - (∑ s, w s * y s) / ∑ s, w s))
      = ∑ r, w r * (y r * y r)
        - (∑ r, w r) * (((∑ s, w s * y s) / ∑ s, w s) * ((∑ s, w s * y s) / ∑ s, w s)) := by
  generalize hSe : ∑ r, w r * y r = S
  have expand : ∀ r, w r * ((y r - S / ∑ s, w s) * (y r - S / ∑ s, w s))
      = w r * (y r * y r) - 2 * (S / ∑ s, w s) * (w r * y r) + (S / ∑ s, w s) * (S / ∑ s, w s) * w r := by
    intro r; ring
  simp_rw [expand]
  rw [Finset.sum_add_distrib, Finset.sum_sub_distrib, ← Finset.mul_sum, ← Finset.mul_sum, hSe]
  field_simp
  ring

/-- The variance identity over the reals, for any real weights of nonzero total. -/
private theorem var_real {R D : Type*} [Fintype R] [Fintype D] (w : R → ℝ) (y : R → D → ℝ) (hn : ∑ r, w r ≠ 0) :
    ∑ r, w r * ∑ d, (y r d - (∑ s, w s * y s d) / ∑ s, w s) * (y r d - (∑ s, w s * y s d) / ∑ s, w s)
      = ∑ r, w r * ∑ d, y r d * y r d
        - (∑ r, w r) * ∑ d, ((∑ s, w s * y s d) / ∑ s, w s) * ((∑ s, w s * y s d) / ∑ s, w s) := by
  simp_rw [Finset.mul_sum]
  rw [Finset.sum_comm, Finset.sum_comm (f := fun r d => w r * (y r d * y r d)), ← Finset.sum_sub_distrib]
  refine Finset.sum_congr rfl fun d _ => ?_
  exact var_coord w (fun r => y r d) hn

/-- The identity over the extended reals, for real entries and a weight that is zero or one and not zero everywhere:
the clamped variance form of the weighted rows is their weighted sum of squared distances to the weighted mean. -/
private theorem var_ereal {R D : Type*} [Fintype R] [Fintype D] (w : R → ℝ) (hw : ∀ r, w r = 0 ∨ w r = 1)
    (y : R → D → ℝ) (hpos : 0 < ∑ r, (w r : EReal)) :
    max ((∑ r, (w r : EReal) * ∑ d, (y r d : EReal) * (y r d : EReal))
        - (∑ r, (w r : EReal))
          * ∑ d, Ideal.div (∑ r, (w r : EReal) * (y r d : EReal)) (max (∑ r, (w r : EReal)) 1)
            * Ideal.div (∑ r, (w r : EReal) * (y r d : EReal)) (max (∑ r, (w r : EReal)) 1)) 0
      = ∑ r, (w r : EReal) * ∑ d,
          ((y r d : EReal) - Ideal.div (∑ r, (w r : EReal) * (y r d : EReal)) (max (∑ r, (w r : EReal)) 1))
          * ((y r d : EReal) - Ideal.div (∑ r, (w r : EReal) * (y r d : EReal)) (max (∑ r, (w r : EReal)) 1)) := by
  classical
  have hw0 : ∀ r, 0 ≤ w r := by
    intro r
    rcases hw r with h | h <;> rw [h] <;> norm_num
  have hcnt : ∑ r, (w r : EReal) = ((∑ r, w r : ℝ) : EReal) := (coe_sum _ _).symm
  have hnpos : 0 < ∑ r, w r := by
    rw [hcnt] at hpos
    exact_mod_cast hpos
  have hn1 : 1 ≤ ∑ r, w r := by
    obtain ⟨k, hk⟩ : ∃ k : ℕ, ∑ r, w r = (k : ℝ) := by
      refine ⟨(Finset.univ.filter fun r : R => w r = 1).card, ?_⟩
      rw [← Finset.sum_boole (fun r : R => w r = 1) Finset.univ]
      refine Finset.sum_congr rfl fun r _ => ?_
      rcases hw r with h | h <;> rw [h] <;> norm_num
    rw [hk] at hnpos ⊢
    have hk0 : 0 < k := by exact_mod_cast hnpos
    exact_mod_cast hk0
  have hmax : max (∑ r, (w r : EReal)) 1 = ((∑ r, w r : ℝ) : EReal) := by
    rw [hcnt]
    exact max_eq_left (by exact_mod_cast hn1)
  have hsum : ∀ d, ∑ r, (w r : EReal) * (y r d : EReal) = ((∑ r, w r * y r d : ℝ) : EReal) := by
    intro d
    rw [coe_sum]
    refine Finset.sum_congr rfl fun r _ => ?_
    rw [EReal.coe_mul]
  have hcent : ∀ d, Ideal.div (∑ r, (w r : EReal) * (y r d : EReal)) (max (∑ r, (w r : EReal)) 1)
      = (((∑ r, w r * y r d) / ∑ r, w r : ℝ) : EReal) := by
    intro d
    rw [hmax, hsum, Ideal.div_coe (ne_of_gt hnpos), ← EReal.coe_mul, mul_one_div]
  simp_rw [hcent]
  have hsq : ∑ r, (w r : EReal) * ∑ d, (y r d : EReal) * (y r d : EReal)
      = ((∑ r, w r * ∑ d, y r d * y r d : ℝ) : EReal) := by
    rw [coe_sum]
    refine Finset.sum_congr rfl fun r _ => ?_
    rw [EReal.coe_mul, coe_sum]
    refine congrArg (fun t => (w r : EReal) * t) ?_
    refine Finset.sum_congr rfl fun d _ => ?_
    rw [EReal.coe_mul]
  have hdist : ∑ r, (w r : EReal) * ∑ d,
        ((y r d : EReal) - (((∑ r, w r * y r d) / ∑ r, w r : ℝ) : EReal))
        * ((y r d : EReal) - (((∑ r, w r * y r d) / ∑ r, w r : ℝ) : EReal))
      = ((∑ r, w r * ∑ d, (y r d - (∑ s, w s * y s d) / ∑ s, w s) * (y r d - (∑ s, w s * y s d) / ∑ s, w s) : ℝ)
          : EReal) := by
    rw [coe_sum]
    refine Finset.sum_congr rfl fun r _ => ?_
    rw [EReal.coe_mul, coe_sum]
    refine congrArg (fun t => (w r : EReal) * t) ?_
    refine Finset.sum_congr rfl fun d _ => ?_
    rw [← EReal.coe_sub, EReal.coe_mul]
  have hmu : ∑ d, (((∑ r, w r * y r d) / ∑ r, w r : ℝ) : EReal) * (((∑ r, w r * y r d) / ∑ r, w r : ℝ) : EReal)
      = ((∑ d, ((∑ r, w r * y r d) / ∑ r, w r) * ((∑ r, w r * y r d) / ∑ r, w r) : ℝ) : EReal) := by
    rw [coe_sum]
    refine Finset.sum_congr rfl fun d _ => ?_
    rw [EReal.coe_mul]
  have hid := var_real w y (ne_of_gt hnpos)
  have hnonneg : 0 ≤ ∑ r, w r * ∑ d, (y r d - (∑ s, w s * y s d) / ∑ s, w s) * (y r d - (∑ s, w s * y s d) / ∑ s, w s) :=
    Finset.sum_nonneg fun r _ =>
      mul_nonneg (hw0 r) (Finset.sum_nonneg fun d _ => mul_self_nonneg _)
  rw [hsq, hcnt, hmu, hdist, ← EReal.coe_mul, ← EReal.coe_sub, ← hid]
  exact max_eq_left (by exact_mod_cast hnonneg)

/-- For a class that has a row, the clamped variance form is the sum of squared distances to the centroid. -/
theorem varN_eq_distN (x : SX.Idx → EReal) (hx : ∀ i, ∃ y : ℝ, x i = (y : EReal)) (l : SL.Idx → BitVec 32) (c : Nat)
    (hpos : 0 < cntN l c) : varN x l c = distN x l c := by
  classical
  choose xr hxr using hx
  -- the indicator of a row, as a real number that is zero or one
  obtain ⟨wr, hwr, hwr01⟩ : ∃ wr : Fin 262144 → ℝ,
      (∀ r, oh c (l (ix1 r)) = ((wr r : ℝ) : EReal)) ∧ ∀ r, wr r = 0 ∨ wr r = 1 := by
    refine ⟨fun r => if BitVec.ofNat 32 c = l (ix1 r) then 1 else 0, fun r => ?_, fun r => ?_⟩
    · show (if BitVec.ofNat 32 c = l (ix1 r) then (1 : EReal) else 0)
        = (((if BitVec.ofNat 32 c = l (ix1 r) then (1 : ℝ) else 0) : ℝ) : EReal)
      split <;> simp
    · show (if BitVec.ofNat 32 c = l (ix1 r) then (1 : ℝ) else 0) = 0
        ∨ (if BitVec.ofNat 32 c = l (ix1 r) then (1 : ℝ) else 0) = 1
      split <;> simp
  have hpos' : 0 < ∑ r, ((wr r : ℝ) : EReal) := by
    unfold cntN at hpos
    simpa only [hwr] using hpos
  have key := var_ereal wr hwr01 (fun r d => xr (ix2 r d)) hpos'
  unfold varN distN centN sqN sumN cntN
  simpa only [hwr, hxr] using key

end Cert.ClassSums

end
-- ==== Proof.Bridge.lean ====
/-
  The two programs' per-class losses are one vector, and so are their counts.

  Kernel. The host sums the two cores' arrays, so at class c (below 100) its count is the sum over both cores, all
  steps and all lanes of the class indicator, which is the count `cntN` over all rows in another order; likewise its
  coordinate sums are `sumN` and its squared norms `sqN`. Its per-class numerator is then `varN`: squared norms
  less count times the centroid's squared norm, not below zero. Reference. Its count is `cntN` and its numerator
  is `distN`, the sum over the class's rows of the squared distance to the centroid.

  Both programs then take `numerator / max(count, 1)` where the count is positive and zero elsewhere. Where the
  count is positive the class has a row, and the variance identity makes the numerators equal (the embeddings are
  real numbers by the precondition); where it is not, both sides are the same zero.
-/
import proofs.«416044_j549755813958_3_alg».proof.Proof.KArrays
import proofs.«416044_j549755813958_3_alg».proof.Proof.KTail
import proofs.«416044_j549755813958_3_alg».proof.Proof.RefStages
import proofs.«416044_j549755813958_3_alg».proof.Proof.Variance

noncomputable section

open Idealize.ShloMosaic Idealize.ShloMosaic.TcCoe Idealize.SL.Sem Idealize.ShloMosaic.ValueIdx

namespace Cert.Proof.Bridge

open Cert.ClassSums

/-- Two selections on "the count is positive" agree when their first branches agree wherever the count is positive. -/
theorem select_pos_congr (n v w : EReal) (h : 0 < n → v = w) :
    Scalar.select (Ideal.cmp .ogt n 0) (Ideal.div v (max n 1)) (0 : EReal)
      = Scalar.select (Ideal.cmp .ogt n 0) (Ideal.div w (max n 1)) (0 : EReal) := by
  by_cases hn : 0 < n
  · rw [h hn]
  · have e : Ideal.cmp .ogt n 0 = 0#1 := by simp [Ideal.cmp, hn]
    rw [e, select_zero, select_zero]

section kernel

open Cert.KernelIdeal Cert.KernelIdeal.Gen Cert.KernelIdeal.Arrays Cert.KernelIdeal.Tail

variable (m : (ℓ : Loc nD τ sig) → Buf (Elt Ideal) ℓ)

/-- The two cores' counts add up to the class count over all rows; likewise the coordinate sums and squared norms. -/
theorem sumA3 (c : Dev nD) (cc : Fin 128) : ∑ p : Fin 2, A3 m c (ix3 p cc 0) = cntN (ls m c) cc.val := by
  unfold cntN
  rw [sum_rows]
  exact Finset.sum_congr rfl fun p _ => A3_apply m c p cc

theorem sumA2 (c : Dev nD) (cc : Fin 128) (d : Fin 256) :
    ∑ p : Fin 2, A2 m c (ix3 p cc d) = sumN (xs m c) (ls m c) cc.val d := by
  unfold sumN
  rw [sum_rows]
  exact Finset.sum_congr rfl fun p _ => A2_apply m c p cc d

theorem sumA4 (c : Dev nD) (cc : Fin 128) : ∑ p : Fin 2, A4 m c (ix3 p cc 0) = sqN (xs m c) (ls m c) cc.val := by
  unfold sqN
  rw [sum_rows]
  exact Finset.sum_congr rfl fun p _ => A4_apply m c p cc

/-- The kernel's count at class `cl`. -/
theorem kcnt_eq (c : Dev nD) (cl : Fin 100) : kcnt (A3 m c) (ix1 cl) = cntN (ls m c) cl.val := by
  rw [kcnt_apply, sumA3]

/-- The kernel's loss at class `cl`: the clamped variance form over the count, where the count is positive. -/
theorem kloss_eq (c : Dev nD) (cl : Fin 100) :
    kloss (A2 m c) (A3 m c) (A4 m c) (ix1 cl)
      = Scalar.select (Ideal.cmp .ogt (cntN (ls m c) cl.val) 0)
          (Ideal.div (varN (xs m c) (ls m c) cl.val) (max (cntN (ls m c) cl.val) 1)) 0 := by
  rw [kloss_apply, kcnt_eq, sumA3, sumA4]
  simp only [sumA2]
  rfl

end kernel

section reference

open Cert.ReferenceIdeal Cert.ReferenceIdeal.ReadP Cert.ReferenceIdeal.Stages

variable (x : (⟨S262144x256, .f32⟩ : BufTy).Contents (Elt Ideal)) (l : (⟨S262144, .i32⟩ : BufTy).Contents (Elt Ideal))

/-- The reference's loss at class `cl`: the sum of squared distances over the count, where the count is positive. -/
theorem rloss_eq (cl : Fin 100) :
    val_main_v28 (F := Ideal) x l (ix1 cl)
      = Scalar.select (Ideal.cmp .ogt (cntN l cl.val) 0) (Ideal.div (distN x l cl.val) (max (cntN l cl.val) 1)) 0 := by
  rw [val_main_v28_apply, val_main_v26_apply, val_main_v27_apply, val_main_v8_apply, val_main_call0_v1_apply,
    val_main_call0_v0_apply, val_main_cst_7_apply, val_main_v25_apply, val_main_cst_6_apply, val_main_v7_apply,
    val_main_cst_2_apply, counts_apply, dist_apply]
  rw [Ideal.cmpf_def, Ideal.hostDivf_def, Ideal.maximumf_def]
  simp only [Ideal.ofBits_def, Ideal.ofBits_zero_f32, Cert.KernelIdeal.Tail.ofBits_one_f32]

end reference

/-! ## The two vectors, and the two results -/

section both

open Cert.KernelIdeal Cert.KernelIdeal.Gen Cert.KernelIdeal.Arrays Cert.KernelIdeal.Tail

variable (m : (ℓ : Loc nD τ sig) → Buf (Elt Ideal) ℓ)

/-- The reference's counts are the kernel's. -/
theorem counts_eq (c : Dev nD) :
    Cert.ReferenceIdeal.ReadP.val_main_v3 (F := Ideal) (ls m c) = kcnt (A3 m c) := by
  funext i
  rw [eq_ix1 i]
  exact (Cert.ReferenceIdeal.Stages.counts_apply (ls m c) (i 0)).trans (kcnt_eq m c (i 0)).symm

/-- The reference's per-class losses are the kernel's, when the embeddings are real numbers. -/
theorem loss_eq (c : Dev nD) (hx : ∀ i, ∃ y : ℝ, xs m c i = (y : EReal)) :
    Cert.ReferenceIdeal.ReadP.val_main_v28 (F := Ideal) (xs m c) (ls m c) = kloss (A2 m c) (A3 m c) (A4 m c) := by
  funext i
  rw [eq_ix1 i]
  refine (rloss_eq (xs m c) (ls m c) (i 0)).trans ((select_pos_congr _ _ _ fun hpos => ?_).trans (kloss_eq m c (i 0)).symm)
  exact (varN_eq_distN (xs m c) hx (ls m c) (i 0).val hpos).symm

/-- So the reference's result, on the kernel's arguments, is the kernel's host tail of its three arrays. -/
theorem result_eq (c : Dev nD) (hx : ∀ i, ∃ y : ℝ, xs m c i = (y : EReal)) :
    Cert.ReferenceIdeal.ReadP.val_main_v35 (F := Ideal) (xs m c) (ls m c) = KT (A2 m c) (A3 m c) (A4 m c) := by
  rw [KT_eq]
  unfold Cert.ReferenceIdeal.ReadP.val_main_v35 Cert.ReferenceIdeal.ReadP.val_main_v34 Cert.ReferenceIdeal.ReadP.val_main_v33
    Cert.ReferenceIdeal.ReadP.val_main_v32 Cert.ReferenceIdeal.ReadP.val_main_v31 Cert.ReferenceIdeal.ReadP.val_main_v30
  rw [loss_eq m c hx, counts_eq m c]
  rfl

end both

end Cert.Proof.Bridge

end
-- ==== Proof.Finite.lean ====
/-
  Under the precondition every embedding entry is a real number.

  The precondition says that the conjunction, over all entries, of `|x| < +inf` is true. A conjunction over a whole
  array is true exactly when every conjunct is, and an extended real whose absolute value is below +inf is neither
  infinity, so it is the image of a real.
-/
import proofs.«416044_j549755813958_3_alg».proof.Defs
import proofs.«416044_j549755813958_3_alg».proof.Proof.Gen.Pre_finite_inputs
import Idealize.ShloMosaic.Lib.ReduceAll
import Idealize.ShloMosaic.PureOps.Ideal.Laws

noncomputable section

namespace Cert.Proof.Finite

open Idealize.ShloMosaic Idealize.SL.Sem

/-- The single-precision pattern with all exponent bits set and no fraction bits is +inf. -/
theorem inf_bits : Ideal.ofBits .f32 0x7F800000#32 = (⊤ : EReal) := by
  simp [Ideal.ofBits, Ideal.ieee]

/-- An extended real whose absolute value is below +inf is the image of a real. -/
theorem real_of_abs_lt_top (x : EReal) (hx : max x (-x) < (⊤ : EReal)) : ∃ y : ℝ, x = (y : EReal) := by
  induction x using EReal.rec with
  | bot => simp at hx
  | coe r => exact ⟨r, rfl⟩
  | top => simp at hx

/-- If the comparison `|x| < +inf` reads true, then `x` is the image of a real. -/
theorem real_of_cmp (x : EReal)
    (hx : Ideal.cmp .olt (max x (-x)) (Ideal.ofBits .f32 0x7F800000#32) = 1#1) : ∃ y : ℝ, x = (y : EReal) := by
  rw [inf_bits] at hx
  by_cases hlt : max x (-x) < (⊤ : EReal)
  · exact real_of_abs_lt_top x hlt
  · exfalso
    have h0 : Ideal.cmp .olt (max x (-x)) (⊤ : EReal) = 0#1 := by
      show BitVec.ofBool (decide (max x (-x) < (⊤ : EReal))) = 0#1
      rw [decide_eq_false hlt]; rfl
    rw [h0] at hx
    exact absurd hx (by decide)

/-- Every entry of the embeddings is a real number, on every device, when the precondition holds. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD)
    (i : Cert.KernelIdeal.S262144x256.Idx) :
    ∃ y : ℝ, m ((c.tc : Thread Cert.KernelIdeal.nD Cert.KernelIdeal.τ).loc Cert.KernelIdeal.main_arg0) i = (y : EReal) := by
  haveI : Subsingleton Cert.Pre_finite_inputs.S_.Idx := ⟨fun a b => funext fun d => d.elim0⟩
  have h0 := congrFun (h c) (fun a => a.elim0)
  dsimp only [Cert.Pre_finite_inputs.fn] at h0
  have hi := Host.reduce_andi_all _ _ _ _ _ h0 i
  exact real_of_cmp (m ((c.tc : Thread Cert.KernelIdeal.nD Cert.KernelIdeal.τ).loc Cert.KernelIdeal.main_arg0) i) hi

end Cert.Proof.Finite

end
-- ==== Proof.lean ====
/-
  The centroid-alignment loss: a one-pass kernel against the two-pass reference, equal over the extended reals.

  Both programs take embeddings x : [262144, 256] and labels l : [262144] and return
      ( Σ_{c < 100, n_c > 0} V_c / n_c ) / #{c < 100 : n_c > 0},
  where n_c is the number of rows whose label is c and V_c the sum, over those rows, of the squared distance to the
  class centroid μ_c = S_c / n_c (S_c the sum of the class's rows). A row whose label is outside [0, 100) belongs
  to no class in either program: the reference's three segment sums drop it, and the kernel's one-hot compare against
  the class ids gives it an all-zero column (the 28 padding rows of the kernel's 128-row class axis are sliced off).

  The reference computes V_c directly, from the rows' differences to the gathered centroid. The kernel makes one
  pass: on each of two cores, 32 steps of 4096 rows accumulate per class the count, the coordinate sums (a matrix
  product of the one-hot matrix with the block, its bf16 casts the identity here) and the sum of squared norms Q_c;
  the host adds the two cores and uses the variance identity V_c = max(Q_c − n_c ‖μ_c‖², 0). Over real numbers
  Σ ‖x − μ‖² = Q − n ‖μ‖² ≥ 0, so the two agree for every class that has a row; the precondition (every embedding
  entry finite) is what makes every quantity a real number. From the equal counts and the equal per-class losses on,
  the two programs apply the same operations.

  The three frames are the generated ones (the reference's is its run with the result dropped); the ideal pass
  rewrote nothing, so `preserves` asks nothing.
-/
import proofs.«416044_j549755813958_3_alg».proof.Defs
import proofs.«416044_j549755813958_3_alg».proof.Proof.Gen.Kernel
import proofs.«416044_j549755813958_3_alg».proof.Proof.Gen.Kernel.Frame
import proofs.«416044_j549755813958_3_alg».proof.Proof.Gen.KernelIdeal
import proofs.«416044_j549755813958_3_alg».proof.Proof.Gen.KernelIdeal.Frame
import proofs.«416044_j549755813958_3_alg».proof.Proof.Gen.ReferenceIdeal
import proofs.«416044_j549755813958_3_alg».proof.Proof.Gen.Pre_finite_inputs
import proofs.«416044_j549755813958_3_alg».proof.Proof.RefRunP
import proofs.«416044_j549755813958_3_alg».proof.Proof.RefReadP
import proofs.«416044_j549755813958_3_alg».proof.Proof.Bridge
import proofs.«416044_j549755813958_3_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result dropped. -/
theorem frame_reference_ideal : Cert.frame_ReferenceIdeal := fun m ρ _ =>
  (θ_run Cert.ReferenceIdeal.defs _ _).mono (fun _ h c => (h c).2) (Cert.ReferenceIdeal.RunP.run (F := Ideal) m ρ)

/-- Both programs end with the kernel's host tail of its three arrays: the kernel by its run and the arrays' final
    contents, the reference because, on arguments that agree, its result is that term (the counts and the per-class
    losses are the same vectors, the embeddings being real numbers under the precondition). -/
theorem algebraic : Cert.algebraic_KernelIdeal_ReferenceIdeal := by
  intro m ρ m' ρ' hpre hagree
  have hx : ∀ c i, ∃ y : ℝ, Cert.KernelIdeal.Arrays.xs m c i = (y : EReal) :=
    fun c i => Cert.Proof.Finite.real_of_pre m hpre c i
  refine ⟨fun c => Cert.KernelIdeal.Tail.KT (Cert.KernelIdeal.Arrays.A2 m c) (Cert.KernelIdeal.Arrays.A3 m c)
    (Cert.KernelIdeal.Arrays.A4 m c), ?_, ?_⟩
  · refine (θ_run Cert.KernelIdeal.defs _ _).mono (fun r h c => ?_) (Cert.KernelIdeal.Tail.run m ρ)
    obtain ⟨h1, h2, h3⟩ := h c
    refine ⟨h1.trans ?_, h2, h3⟩
    rw [Cert.KernelIdeal.Arrays.final2, Cert.KernelIdeal.Arrays.final3, Cert.KernelIdeal.Arrays.final4]
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v35_eq, (hagree c).1, (hagree c).2]
    exact Cert.Proof.Bridge.result_eq m c (hx c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
